-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S8x4096x4096 : Shape := ⟨3, ![8, 4096, 4096]⟩
abbrev S128x128 : Shape := ⟨2, ![128, 128]⟩
abbrev S128 : Shape := ⟨1, ![128]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8x4096x128 .f32) (main_arg1 : IVec S8x4096x4096 32) (main_arg2 : FVec F S128x128 .f32) (main_arg3 : FVec F S128x128 .f32) (main_arg4 : FVec F S128 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8x4096x128 : Shape := ⟨3, ![8, 4096, 128]⟩
abbrev S8x4096x4096 : Shape := ⟨3, ![8, 4096, 4096]⟩
abbrev S128x128 : Shape := ⟨2, ![128, 128]⟩
abbrev S128 : Shape := ⟨1, ![128]⟩
abbrev S1x128 : Shape := ⟨2, ![1, 128]⟩
abbrev S1x256x4096 : Shape := ⟨3, ![1, 256, 4096]⟩
abbrev S1x256x128 : Shape := ⟨3, ![1, 256, 128]⟩
abbrev S1x4096x128 : Shape := ⟨3, ![1, 4096, 128]⟩
abbrev S4096x128 : Shape := ⟨2, ![4096, 128]⟩
abbrev S4096x1 : Shape := ⟨2, ![4096, 1]⟩
abbrev S256x4096 : Shape := ⟨2, ![256, 4096]⟩
abbrev S256x128 : Shape := ⟨2, ![256, 128]⟩
abbrev S256x1 : Shape := ⟨2, ![256, 1]⟩

abbrev nBuf : Space → Nat
  | .hbm => 7
  | .vmem => 13
  | .smem => 0
  | _ => 0

abbrev bufTy : (tb : Table) → Fin (tcTables nBuf tb) → BufTy
  | .hbm, ⟨0, _⟩ => ⟨S8x4096x128, .f32⟩
  | .hbm, ⟨1, _⟩ => ⟨S8x4096x4096, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S8x4096x128, .f32⟩
  | .local _ .vmem, ⟨0, _⟩ => ⟨S1x256x4096, .i32⟩
  | .local _ .vmem, ⟨1, _⟩ => ⟨S1x256x4096, .i32⟩
  | .local _ .vmem, ⟨2, _⟩ => ⟨S1x256x128, .f32⟩
  | .local _ .vmem, ⟨3, _⟩ => ⟨S1x256x128, .f32⟩
  | .local _ .vmem, ⟨4, _⟩ => ⟨S1x4096x128, .f32⟩
  | .local _ .vmem, ⟨5, _⟩ => ⟨S1x4096x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x4096x128, .f32⟩
  | .local _ .vmem, ⟨10, _⟩ => ⟨S1x4096x128, .f32⟩
  | .local _ .vmem, ⟨11, _⟩ => ⟨S4096x128, .f32⟩
  | .local _ .vmem, ⟨12, _⟩ => ⟨S4096x1, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_17 : BitVec 32 := 0#32
  let v28 : BitVec 1 := Scalar.cmpi .ne v27 c0_i32_17
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  natLt_1_32 : 1 < 32
  bitsLt_bf16_f32 : FTy.bits .bf16 < FTy.bits .f32
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  broadcasts_S4096x1_S4096x128 : S4096x1.Broadcasts S4096x128
  inb_S128x128_S128x128_0_0 : ∀ a, (![0, 0] : Fin 2 → Nat) a + S128x128.size a ≤ S128x128.size a
  h_S128x128 : 0 < S128x128.numel
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S4096x128_S1x4096x128 : S4096x128.ShapeCasts S1x4096x128
  dot_S256x4096_S256x128_S4096x128_0_0_1_1_n_n_wf : DotDims.WF S256x4096 S256x128 S4096x128 [0] [0] [1] [1] [] []
  dot_S256x4096_S256x1_S4096x1_0_0_1_1_n_n_wf : DotDims.WF S256x4096 S256x1 S4096x1 [0] [0] [1] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x4096x4096.size a
  hwx0_0 : ∀ i : grid0.Coords, EltTy.bits .i32 = 32 ∨ (Rect.block (s := S8x4096x4096) S1x256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S8x4096x128.size a
  hwx0_1 : ∀ i : grid0.Coords, EltTy.bits .f32 = 32 ∨ (Rect.block (s := S8x4096x128) S1x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x128.size a ≤ S8x4096x128.size a
  hwx0_2 : ∀ i : grid0.Coords, EltTy.bits .f32 = 32 ∨ (Rect.block (s := S8x4096x128) S1x4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4096x128.size a ≤ S8x4096x128.size a
  hwx0_6 : ∀ i : grid0.Coords, EltTy.bits .f32 = 32 ∨ (Rect.block (s := S8x4096x128) S1x4096x128.size (cc0_transform_6 i) (hinb0_6 i)).WholeWords (EltTy.packing .f32)

variable [Facts₀]

def dot_S256x4096_S256x128_S4096x128_0_0_1_1_n_n : DotDims S256x4096 S256x128 S4096x128 where
  lhsContracting := [0]
  rhsContracting := [0]
  lhsNonContracting := [1]
  rhsNonContracting := [1]
  lhsBatch := []
  rhsBatch := []
  wf := dot_S256x4096_S256x128_S4096x128_0_0_1_1_n_n_wf
def dot_S256x4096_S256x1_S4096x1_0_0_1_1_n_n : DotDims S256x4096 S256x1 S4096x1 where
  lhsContracting := [0]
  rhsContracting := [0]
  lhsNonContracting := [1]
  rhsNonContracting := [1]
  lhsBatch := []
  rhsBatch := []
  wf := dot_S256x4096_S256x1_S4096x1_0_0_1_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg1) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x4096x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x4096x128 : Shape := ⟨3, ![8, 4096, 128]⟩
abbrev S8x4096x4096 : Shape := ⟨3, ![8, 4096, 4096]⟩
abbrev S128x128 : Shape := ⟨2, ![128, 128]⟩
abbrev S128 : Shape := ⟨1, ![128]⟩
abbrev S_ : Shape := ⟨0, ![]⟩
abbrev S8x4096 : Shape := ⟨2, ![8, 4096]⟩
abbrev S8x4096x1 : Shape := ⟨3, ![8, 4096, 1]⟩
abbrev S1x1x128 : Shape := ⟨3, ![1, 1, 128]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x4096, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S8x4096x4096, .i32⟩
  | .hbm, ⟨7, _⟩ => ⟨S8x4096x4096, .i1⟩
  | .hbm, ⟨8, _⟩ => ⟨S8x4096x4096, .f32⟩
  | .hbm, ⟨9, _⟩ => ⟨S_, .f32⟩
  | .hbm, ⟨10, _⟩ => ⟨S8x4096, .f32⟩
  | .hbm, ⟨11, _⟩ => ⟨S8x4096x128, .f32⟩
  | .hbm, ⟨12, _⟩ => ⟨S_, .f32⟩
  | .hbm, ⟨13, _⟩ => ⟨S8x4096, .f32⟩
  | .hbm, ⟨14, _⟩ => ⟨S8x4096, .f32⟩
  | .hbm, ⟨15, _⟩ => ⟨S8x4096x1, .f32⟩
  | .hbm, ⟨16, _⟩ => ⟨S8x4096x128, .f32⟩
  | .hbm, ⟨17, _⟩ => ⟨S8x4096x128, .f32⟩
  | .hbm, ⟨18, _⟩ => ⟨S8x4096x128, .f32⟩
  | .hbm, ⟨19, _⟩ => ⟨S8x4096x128, .f32⟩
  | .hbm, ⟨20, _⟩ => ⟨S8x4096x128, .f32⟩
  | .hbm, ⟨21, _⟩ => ⟨S1x1x128, .f32⟩
  | .hbm, ⟨22, _⟩ => ⟨S8x4096x128, .f32⟩
  | .hbm, ⟨23, _⟩ => ⟨S8x4096x128, .f32⟩
  | .hbm, ⟨24, _⟩ => ⟨S_, .f32⟩
  | .hbm, ⟨25, _⟩ => ⟨S8x4096x128, .f32⟩
  | .hbm, ⟨26, _⟩ => ⟨S8x4096x128, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  reducesTo_S8x4096x4096_S8x4096_d1 : S8x4096x4096.ReducesTo [1] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x128_0_1_2 : S8x4096x1.BroadcastsInDim S8x4096x128 (![0, 1, 2] : Fin 3 → Fin S8x4096x128.rank)
  bcast_S128_S1x1x128_2 : S128.BroadcastsInDim S1x1x128 (![2] : Fin 1 → Fin S1x1x128.rank)
  bcast_S1x1x128_S8x4096x128_0_1_2 : S1x1x128.BroadcastsInDim S8x4096x128 (![0, 1, 2] : Fin 3 → Fin S8x4096x128.rank)
  bcast_S_S8x4096x128 : S_.BroadcastsInDim S8x4096x128 (![] : Fin 0 → Fin S8x4096x128.rank)
  dot_S8x4096x4096_S8x4096x128_S8x4096x128_1_1_2_2_0_0_wf : DotDims.WF S8x4096x4096 S8x4096x128 S8x4096x128 [1] [1] [2] [2] [0] [0]
  dot_S8x4096x128_S128x128_S8x4096x128_2_0_01_1_n_n_wf : DotDims.WF S8x4096x128 S128x128 S8x4096x128 [2] [0] [0, 1] [1] [] []

variable [Facts₀]

def dot_S8x4096x4096_S8x4096x128_S8x4096x128_1_1_2_2_0_0 : DotDims S8x4096x4096 S8x4096x128 S8x4096x128 where
  lhsContracting := [1]
  rhsContracting := [1]
  lhsNonContracting := [2]
  rhsNonContracting := [2]
  lhsBatch := [0]
  rhsBatch := [0]
  wf := dot_S8x4096x4096_S8x4096x128_S8x4096x128_1_1_2_2_0_0_wf
def dot_S8x4096x128_S128x128_S8x4096x128_2_0_01_1_n_n : DotDims S8x4096x128 S128x128 S8x4096x128 where
  lhsContracting := [2]
  rhsContracting := [0]
  lhsNonContracting := [0, 1]
  rhsNonContracting := [1]
  lhsBatch := []
  rhsBatch := []
  wf := dot_S8x4096x128_S128x128_S8x4096x128_2_0_01_1_n_n_wf

class Facts : Prop extends Facts₀ where

variable [Facts]
-- ==== Proof.K.Setting.lean ====
/-
  The message-passing kernel's setting, for any float type: one pipelined region over the grid (batch b, sender
  tile i) = (8, 16), seven windows — the adjacency tile adj[b, 256 i .. 256 i + 256, :], the sender rows
  x[b, 256 i .. 256 i + 256, :], the receiver rows x[b, :, :] (the SAME array as the sender window's), the two
  weight matrices, the bias row (the bias vector reshaped by the one host operation before the region), and the
  result rows out[b, :, :] — and two scratch accumulators carried from tile to tile: the neighbour sums
  msum[j, f] and the in-degrees deg[j].
  Here: what the region finds in each array at its entry, each window's block at a grid point, that an input
  window's staging buffer holds that block whenever the body runs, the two branch conditions in closed form
  (the reset at i = 0, the finish at i = 15), and names for the memrefs the body is called with.
-/
import proofs.«118113_j2903397893033_1_alg».proof.Proof.Gen.Kernel.Launch
import proofs.«118113_j2903397893033_1_alg».proof.Proof.Gen.Kernel.Skeleton
import proofs.«118113_j2903397893033_1_alg».proof.Proof.Gen.Kernel.Points
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Mpnn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch contents after the one host operation, the reshape of
    the bias vector into a row. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is that host operation followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only the bias row: every argument array enters the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window the body only reads holds its block whenever the body runs, fetched at that point or not (an
    unfetched window's block index has not moved), for any proof data that names the region-entry arrays and
    says the body leaves the block in place. -/
theorem found_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two branches, in closed form over the grid -/

/-- The first branch is taken at the first sender tile of each batch: there the accumulators are reset. -/
abbrev atFirst (i : grid0.Coords) : Prop := (Scalar.cmpi .ne (Scalar.extui (Scalar.cmpi .eq (BitVec.ofNat 32 (i 1).val) 0#32)) 0#32) = 1#1
theorem atFirst_iff : ∀ t : Fin cfg0.N, atFirst (grid0.coords t) ↔ t.val % 16 = 0 :=
  (by decide +kernel : ∀ t : Fin grid0.N, atFirst (grid0.coords t) ↔ t.val % 16 = 0)

/-- The second branch is taken at the last sender tile of each batch: there the result rows are computed and stored. -/
abbrev atLast (i : grid0.Coords) : Prop := k0_cond2 i = 1#1
theorem atLast_iff : ∀ t : Fin cfg0.N, atLast (grid0.coords t) ↔ t.val % 16 = 15 :=
  (by decide +kernel : ∀ t : Fin grid0.N, atLast (grid0.coords t) ↔ t.val % 16 = 15)

/-! ## Where the result window is idle -/

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
/-- Away from a batch's last tile the body stores nothing into the result window and the pipeline does not write it back; -/
theorem idle_out : ∀ t : Fin cfg0.N, ¬atLast (grid0.coords t) → cfg0.idle 6 (grid0.coords t) = true := by decide +kernel
theorem noFlush_out : ∀ t : Fin cfg0.N, ¬atLast (grid0.coords t) → (cfg0.win 6).flush t = false := by decide +kernel
/-- at the last tile it is live. -/
theorem live_out : ∀ t : Fin cfg0.N, atLast (grid0.coords t) → cfg0.idle 6 (grid0.coords t) = false := by decide +kernel

/-! ## The memrefs the body is called with -/

abbrev ms0 (t : Fin cfg0.N) : Memref sig .tc .vmem S1x256x4096 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x4096x128 .f32 := win0_6.stage (cfg0.slots t 6)
abbrev hs6 (t : Fin cfg0.N) : (ms6 t).IsWhole := hstage0_6 ((cfg0.slots t 6).cast nbuf0_6)
/-- The two accumulators: whole scratch buffers of the kernel's own. -/
abbrev accM : Memref sig .tc .vmem S4096x128 .f32 := Memref.whole cc0_scratch0
abbrev accD : Memref sig .tc .vmem S4096x1 .f32 := Memref.whole cc0_scratch1
/-- Views through which the contents of the result's staging buffer and of the accumulators are stated. -/
abbrev VOut : View sig .tc .vmem S1x4096x128 .f32 := (Memref.whole cc0_stg6_0 : Memref sig .tc .vmem S1x4096x128 .f32).view
abbrev VM : View sig .tc .vmem S4096x128 .f32 := accM.view
abbrev VD : View sig .tc .vmem S4096x1 .f32 := accD.view

/-- The kernel's scratch, as the launch hands it over: both accumulators at some contents. -/
theorem scratch_eq (c : Dev nD) :
    (Pipeline.scopedRest (Ix := Unit) (Name := ℕ) (U := UR sig nD τ) (Lvl := ℕ) (Val := Elt F) spec0 c : sProp 𝕄)
      = iprop((∃ d, owns (c : Thread nD τ) accM fullShare d) ∗ (∃ d, owns (c : Thread nD τ) accD fullShare d)) := by
  rw [scopedRest0_eq]; simp only [accM, accD, owns_whole]; try rfl

end Cert.Kernel.Mpnn

end
-- ==== Proof.K.RunFirst.lean ====
/-
  The body at the first sender tile of a batch (the reset is taken, the finish is not), on any whole memrefs:
  it overwrites both accumulators with zeros, then adds this tile's contribution — the tile's 0/1 mask contracted
  with the tile's sender rows over the tile's 256 senders, and with a column of ones — and stores nothing else.
  The run is symbolic; what each accumulator ends with is recorded as the list of pieces its stores wrote.
-/
import proofs.«118113_j2903397893033_1_alg».proof.Proof.K.Setting

set_option maxRecDepth 16384

noncomputable section

namespace Cert.Kernel.Mpnn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid0.Coords)
  (a0 : Memref sig .tc .vmem S1x256x4096 .i32) (h0 : a0.IsWhole)
  (a1 : Memref sig .tc .vmem S1x256x128 .f32) (h1 : a1.IsWhole)
  (a2 : Memref sig .tc .vmem S1x4096x128 .f32) (h2 : a2.IsWhole)
  (a3 : Memref sig .tc .vmem S128x128 .f32) (h3 : a3.IsWhole)
  (a4 : Memref sig .tc .vmem S128x128 .f32) (h4 : a4.IsWhole)
  (a5 : Memref sig .tc .vmem S1x128 .f32) (h5 : a5.IsWhole)
  (a6 : Memref sig .tc .vmem S1x4096x128 .f32) (h6 : a6.IsWhole)
  (sM : Memref sig .tc .vmem S4096x128 .f32) (hM : sM.IsWhole)
  (sD : Memref sig .tc .vmem S4096x1 .f32) (hD : sD.IsWhole)

set_option maxHeartbeats 4000000 in
/-- From the adjacency tile at `x0`, the sender rows at `x1` and the accumulators at anything, the body runs and
    hands back the two inputs as they were and each accumulator with its pieces written. -/
noncomputable def runFirst (hc0 : atFirst i) (hc1 : ¬atLast i)
    (x0 : Vec F S1x256x4096 .i32) (x1 : Vec F S1x256x128 .f32) :
    Σ' (LM : List (View.Piece (Elt F) S4096x128 .f32)), { LD : List (View.Piece (Elt F) S4096x1 .f32) //
      ∀ (E : Set ℕ) (K : PUnit → sProp 𝕄),
        iprop(owns (c : Thread nD τ) a0 fullShare x0 ∗ owns (c : Thread nD τ) a1 fullShare x1
            ∗ (∃ d, owns (c : Thread nD τ) sM fullShare d) ∗ (∃ d, owns (c : Thread nD τ) sD fullShare d)
            ∗ (iprop(owns (c : Thread nD τ) a0 fullShare x0 ∗ owns (c : Thread nD τ) a1 fullShare x1
                ∗ (∃ f, sM.view.loc (c : Thread nD τ) ↦[sM.view.set]{fullShare} sM.view.writes (Elt F) f LM)
                ∗ (∃ f, sD.view.loc (c : Thread nD τ) ↦[sD.view.set]{fullShare} sD.view.writes (Elt F) f LD)) -∗ K ⟨⟩))
          ⊢ wp frame (wpE (defs₀ (F := F)) Variants.none c none) E (cc0__mpnn_kernel i a0 h0 a1 h1 a2 h2 a3 h3 a4 h4 a5 h5 a6 h6 sM hM sD hD) K } := by
  refine ⟨?_, ?_, fun E K => ?run⟩
  case run =>
    simp only [cc0__mpnn_kernel_eq_skeleton]; unfold cc0__mpnn_kernel_skel
    unfold owns
    iintro ⟨⟨%f0, %hf0, H0⟩, ⟨%f1, %hf1, H1⟩, ⟨%dM, %fM, -, HM⟩, ⟨%dD, %fD, -, HD⟩, Hk⟩
    obtain rfl := h0.eq_unread hf0; obtain rfl := h1.eq_unread hf1
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [HM]; · iexists _; iexact HM
    iexists _; iexact HD

end Cert.Kernel.Mpnn

end
-- ==== Proof.K.RunMid.lean ====
/-
  The body at a middle sender tile of a batch (neither the reset nor the finish is taken), on any whole memrefs:
  it adds this tile's contribution to both accumulators, which it finds at what the tile before left.
-/
import proofs.«118113_j2903397893033_1_alg».proof.Proof.K.RunFirst

set_option maxRecDepth 16384

noncomputable section

namespace Cert.Kernel.Mpnn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid0.Coords)
  (a0 : Memref sig .tc .vmem S1x256x4096 .i32) (h0 : a0.IsWhole)
  (a1 : Memref sig .tc .vmem S1x256x128 .f32) (h1 : a1.IsWhole)
  (a2 : Memref sig .tc .vmem S1x4096x128 .f32) (h2 : a2.IsWhole)
  (a3 : Memref sig .tc .vmem S128x128 .f32) (h3 : a3.IsWhole)
  (a4 : Memref sig .tc .vmem S128x128 .f32) (h4 : a4.IsWhole)
  (a5 : Memref sig .tc .vmem S1x128 .f32) (h5 : a5.IsWhole)
  (a6 : Memref sig .tc .vmem S1x4096x128 .f32) (h6 : a6.IsWhole)
  (sM : Memref sig .tc .vmem S4096x128 .f32) (hM : sM.IsWhole)
  (sD : Memref sig .tc .vmem S4096x1 .f32) (hD : sD.IsWhole)

set_option maxHeartbeats 4000000 in
/-- From the adjacency tile at `x0`, the sender rows at `x1` and the accumulators at `xM`, `xD`, the body runs and
    hands back the two inputs as they were and each accumulator with its pieces written. -/
noncomputable def runMid (hc0 : ¬atFirst i) (hc1 : ¬atLast i)
    (x0 : Vec F S1x256x4096 .i32) (x1 : Vec F S1x256x128 .f32) (xM : Vec F S4096x128 .f32) (xD : Vec F S4096x1 .f32) :
    Σ' (LM : List (View.Piece (Elt F) S4096x128 .f32)), { LD : List (View.Piece (Elt F) S4096x1 .f32) //
      ∀ (E : Set ℕ) (K : PUnit → sProp 𝕄),
        iprop(owns (c : Thread nD τ) a0 fullShare x0 ∗ owns (c : Thread nD τ) a1 fullShare x1
            ∗ owns (c : Thread nD τ) sM fullShare xM ∗ owns (c : Thread nD τ) sD fullShare xD
            ∗ (iprop(owns (c : Thread nD τ) a0 fullShare x0 ∗ owns (c : Thread nD τ) a1 fullShare x1
                ∗ (∃ f, sM.view.loc (c : Thread nD τ) ↦[sM.view.set]{fullShare} sM.view.writes (Elt F) f LM)
                ∗ (∃ f, sD.view.loc (c : Thread nD τ) ↦[sD.view.set]{fullShare} sD.view.writes (Elt F) f LD)) -∗ K ⟨⟩))
          ⊢ wp frame (wpE (defs₀ (F := F)) Variants.none c none) E (cc0__mpnn_kernel i a0 h0 a1 h1 a2 h2 a3 h3 a4 h4 a5 h5 a6 h6 sM hM sD hD) K } := by
  refine ⟨?_, ?_, fun E K => ?run⟩
  case run =>
    simp only [cc0__mpnn_kernel_eq_skeleton]; unfold cc0__mpnn_kernel_skel
    unfold owns
    iintro ⟨⟨%f0, %hf0, H0⟩, ⟨%f1, %hf1, H1⟩, ⟨%fM, %hfM, HM⟩, ⟨%fD, %hfD, HD⟩, Hk⟩
    obtain rfl := h0.eq_unread hf0; obtain rfl := h1.eq_unread hf1
    obtain rfl := hM.eq_unread hfM; obtain rfl := hD.eq_unread hfD
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [HM]; · iexists _; iexact HM
    iexists _; iexact HD

end Cert.Kernel.Mpnn

end
-- ==== Proof.K.RunLast.lean ====
/-
  The body at the last sender tile of a batch (the finish is taken, the reset is not), on any whole memrefs:
  it adds this tile's contribution to both accumulators, then divides the neighbour sums by the in-degrees
  clamped at one, multiplies the means by the message weights and the receiver rows by the update weights, adds
  the two and the bias row, clamps at zero and stores the rows whole into the result's staging buffer.
-/
import proofs.«118113_j2903397893033_1_alg».proof.Proof.K.RunMid

set_option maxRecDepth 16384

noncomputable section

namespace Cert.Kernel.Mpnn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid0.Coords)
  (a0 : Memref sig .tc .vmem S1x256x4096 .i32) (h0 : a0.IsWhole)
  (a1 : Memref sig .tc .vmem S1x256x128 .f32) (h1 : a1.IsWhole)
  (a2 : Memref sig .tc .vmem S1x4096x128 .f32) (h2 : a2.IsWhole)
  (a3 : Memref sig .tc .vmem S128x128 .f32) (h3 : a3.IsWhole)
  (a4 : Memref sig .tc .vmem S128x128 .f32) (h4 : a4.IsWhole)
  (a5 : Memref sig .tc .vmem S1x128 .f32) (h5 : a5.IsWhole)
  (a6 : Memref sig .tc .vmem S1x4096x128 .f32) (h6 : a6.IsWhole)
  (sM : Memref sig .tc .vmem S4096x128 .f32) (hM : sM.IsWhole)
  (sD : Memref sig .tc .vmem S4096x1 .f32) (hD : sD.IsWhole)

set_option maxHeartbeats 4000000 in
/-- From the six input blocks at `x0` … `x5`, the result's buffer at anything and the accumulators at `xM`, `xD`,
    the body runs and hands back the inputs as they were, and the result's buffer and each accumulator with its
    pieces written. -/
noncomputable def runLast (hc0 : ¬atFirst i) (hc1 : atLast i)
    (x0 : Vec F S1x256x4096 .i32) (x1 : Vec F S1x256x128 .f32) (x2 : Vec F S1x4096x128 .f32) (x3 x4 : Vec F S128x128 .f32)
    (x5 : Vec F S1x128 .f32) (xM : Vec F S4096x128 .f32) (xD : Vec F S4096x1 .f32) :
    Σ' (LO : List (View.Piece (Elt F) S1x4096x128 .f32)) (LM : List (View.Piece (Elt F) S4096x128 .f32)), { LD : List (View.Piece (Elt F) S4096x1 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ (∃ d, owns (c : Thread nD τ) a6 fullShare d)
            ∗ owns (c : Thread nD τ) sM fullShare xM ∗ owns (c : Thread nD τ) sD fullShare xD
            ∗ (iprop(owns (c : Thread nD τ) a0 fullShare x0 ∗ owns (c : Thread nD τ) a1 fullShare x1 ∗ owns (c : Thread nD τ) a2 fullShare x2
                ∗ owns (c : Thread nD τ) a3 fullShare x3 ∗ owns (c : Thread nD τ) a4 fullShare x4 ∗ owns (c : Thread nD τ) a5 fullShare x5
                ∗ (∃ f, a6.view.loc (c : Thread nD τ) ↦[a6.view.set]{fullShare} a6.view.writes (Elt F) f LO)
                ∗ (∃ f, sM.view.loc (c : Thread nD τ) ↦[sM.view.set]{fullShare} sM.view.writes (Elt F) f LM)
                ∗ (∃ f, sD.view.loc (c : Thread nD τ) ↦[sD.view.set]{fullShare} sD.view.writes (Elt F) f LD)) -∗ K ⟨⟩))
          ⊢ wp frame (wpE (defs₀ (F := F)) Variants.none c none) E (cc0__mpnn_kernel i a0 h0 a1 h1 a2 h2 a3 h3 a4 h4 a5 h5 a6 h6 sM hM sD hD) K } := by
  refine ⟨?_, ?_, ?_, fun E K => ?run⟩
  case run =>
    simp only [cc0__mpnn_kernel_eq_skeleton]; unfold cc0__mpnn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fM, %hfM, HM⟩, ⟨%fD, %hfD, HD⟩, Hk⟩
    obtain rfl := h0.eq_unread hf0; obtain rfl := h1.eq_unread hf1; obtain rfl := h2.eq_unread hf2
    obtain rfl := h3.eq_unread hf3; obtain rfl := h4.eq_unread hf4; obtain rfl := h5.eq_unread hf5
    obtain rfl := hM.eq_unread hfM; obtain rfl := hD.eq_unread hfD
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [HM]; · iexists _; iexact HM
    iexists _; iexact HD

end Cert.Kernel.Mpnn

end
-- ==== Proof.K.Body.lean ====
/-
  The proof data of the message-passing pipeline and its body obligation, for any float type.
  What a tile's body leaves in a buffer is the pieces its stores wrote, read back; each buffer a case stores
  into is stored whole, so the pieces cover it and the contents do not depend on what the buffer held.
  The accumulators after grid point n (`accAt`) follow the tiles of a batch: the first tile's body (n ≡ 0 mod 16)
  starts from zero, every later one continues from what the tile before left. The result's staging buffer
  (`outAt`) is written at a batch's last tile (n ≡ 15 mod 16) from the accumulators that tile completes, and is
  left alone at the other tiles, where the pipeline does not write it back either.
  The region's invariant before point n: at n = 0 the two scratch buffers at anything, afterwards at `accAt (n - 1)`.
  The sender and the receiver windows read ONE array: they hold it at its two half shares.
-/
import proofs.«118113_j2903397893033_1_alg».proof.Proof.K.RunLast

set_option maxRecDepth 16384

noncomputable section

namespace Cert.Kernel.Mpnn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, on any memrefs -/

section Cases
variable (c : Dev nD) (i : grid0.Coords)
  (a0 : Memref sig .tc .vmem S1x256x4096 .i32) (h0 : a0.IsWhole)
  (a1 : Memref sig .tc .vmem S1x256x128 .f32) (h1 : a1.IsWhole)
  (a2 : Memref sig .tc .vmem S1x4096x128 .f32) (h2 : a2.IsWhole)
  (a3 : Memref sig .tc .vmem S128x128 .f32) (h3 : a3.IsWhole)
  (a4 : Memref sig .tc .vmem S128x128 .f32) (h4 : a4.IsWhole)
  (a5 : Memref sig .tc .vmem S1x128 .f32) (h5 : a5.IsWhole)
  (a6 : Memref sig .tc .vmem S1x4096x128 .f32) (h6 : a6.IsWhole)
  (sM : Memref sig .tc .vmem S4096x128 .f32) (hM : sM.IsWhole)
  (sD : Memref sig .tc .vmem S4096x1 .f32) (hD : sD.IsWhole)

variable (hF0 : atFirst i) (hF1 : ¬atFirst i) (hL0 : atLast i) (hL1 : ¬atLast i)
  (x0 : Vec F S1x256x4096 .i32) (x1 : Vec F S1x256x128 .f32) (x2 : Vec F S1x4096x128 .f32) (x3 x4 : Vec F S128x128 .f32)
  (x5 : Vec F S1x128 .f32) (xM : Vec F S4096x128 .f32) (xD : Vec F S4096x1 .f32)

/-- Each case's stores tile the buffers they write. -/
theorem coverM_first (y : S4096x128.Idx) : ∃ pc ∈ (runFirst (F := F) c i a0 h0 a1 h1 a2 h2 a3 h3 a4 h4 a5 h5 a6 h6 sM hM sD hD hF0 hL1 x0 x1).1, y ∈ pc.1.set :=
  View.cover_of_tiledL (runFirst (F := F) c i a0 h0 a1 h1 a2 h2 a3 h3 a4 h4 a5 h5 a6 h6 sM hM sD hD hF0 hL1 x0 x1).1 S4096x128.size (by sl_kernel_rfl) y
theorem coverD_first (y : S4096x1.Idx) : ∃ pc ∈ (runFirst (F := F) c i a0 h0 a1 h1 a2 h2 a3 h3 a4 h4 a5 h5 a6 h6 sM hM sD hD hF0 hL1 x0 x1).2.1, y ∈ pc.1.set :=
  View.cover_of_tiledL (runFirst (F := F) c i a0 h0 a1 h1 a2 h2 a3 h3 a4 h4 a5 h5 a6 h6 sM hM sD hD hF0 hL1 x0 x1).2.1 S4096x1.size (by sl_kernel_rfl) y
theorem coverM_mid (y : S4096x128.Idx) : ∃ pc ∈ (runMid (F := F) c i a0 h0 a1 h1 a2 h2 a3 h3 a4 h4 a5 h5 a6 h6 sM hM sD hD hF1 hL1 x0 x1 xM xD).1, y ∈ pc.1.set :=
  View.cover_of_tiledL (runMid (F := F) c i a0 h0 a1 h1 a2 h2 a3 h3 a4 h4 a5 h5 a6 h6 sM hM sD hD hF1 hL1 x0 x1 xM xD).1 S4096x128.size (by sl_kernel_rfl) y
theorem coverD_mid (y : S4096x1.Idx) : ∃ pc ∈ (runMid (F := F) c i a0 h0 a1 h1 a2 h2 a3 h3 a4 h4 a5 h5 a6 h6 sM hM sD hD hF1 hL1 x0 x1 xM xD).2.1, y ∈ pc.1.set :=
  View.cover_of_tiledL (runMid (F := F) c i a0 h0 a1 h1 a2 h2 a3 h3 a4 h4 a5 h5 a6 h6 sM hM sD hD hF1 hL1 x0 x1 xM xD).2.1 S4096x1.size (by sl_kernel_rfl) y
theorem coverO_last (y : S1x4096x128.Idx) : ∃ pc ∈ (runLast (F := F) c i a0 h0 a1 h1 a2 h2 a3 h3 a4 h4 a5 h5 a6 h6 sM hM sD hD hF1 hL0 x0 x1 x2 x3 x4 x5 xM xD).1, y ∈ pc.1.set :=
  View.cover_of_tiledL (runLast (F := F) c i a0 h0 a1 h1 a2 h2 a3 h3 a4 h4 a5 h5 a6 h6 sM hM sD hD hF1 hL0 x0 x1 x2 x3 x4 x5 xM xD).1 S1x4096x128.size (by sl_kernel_rfl) y
theorem coverM_last (y : S4096x128.Idx) : ∃ pc ∈ (runLast (F := F) c i a0 h0 a1 h1 a2 h2 a3 h3 a4 h4 a5 h5 a6 h6 sM hM sD hD hF1 hL0 x0 x1 x2 x3 x4 x5 xM xD).2.1, y ∈ pc.1.set :=
  View.cover_of_tiledL (runLast (F := F) c i a0 h0 a1 h1 a2 h2 a3 h3 a4 h4 a5 h5 a6 h6 sM hM sD hD hF1 hL0 x0 x1 x2 x3 x4 x5 xM xD).2.1 S4096x128.size (by sl_kernel_rfl) y
theorem coverD_last (y : S4096x1.Idx) : ∃ pc ∈ (runLast (F := F) c i a0 h0 a1 h1 a2 h2 a3 h3 a4 h4 a5 h5 a6 h6 sM hM sD hD hF1 hL0 x0 x1 x2 x3 x4 x5 xM xD).2.2.1, y ∈ pc.1.set :=
  View.cover_of_tiledL (runLast (F := F) c i a0 h0 a1 h1 a2 h2 a3 h3 a4 h4 a5 h5 a6 h6 sM hM sD hD hF1 hL0 x0 x1 x2 x3 x4 x5 xM xD).2.2.1 S4096x1.size (by sl_kernel_rfl) y

/-- What the first tile's body leaves in the neighbour-sum accumulator and in the in-degree accumulator; -/
def mFirst : Vec F S4096x128 .f32 := VM.read (Elt F) (VM.writes (Elt F) VM.junk (runFirst (F := F) c i a0 h0 a1 h1 a2 h2 a3 h3 a4 h4 a5 h5 a6 h6 sM hM sD hD hF0 hL1 x0 x1).1)
def dFirst : Vec F S4096x1 .f32 := VD.read (Elt F) (VD.writes (Elt F) VD.junk (runFirst (F := F) c i a0 h0 a1 h1 a2 h2 a3 h3 a4 h4 a5 h5 a6 h6 sM hM sD hD hF0 hL1 x0 x1).2.1)
/-- a middle tile's, over what the tile before left; -/
def mMid : Vec F S4096x128 .f32 := VM.read (Elt F) (VM.writes (Elt F) VM.junk (runMid (F := F) c i a0 h0 a1 h1 a2 h2 a3 h3 a4 h4 a5 h5 a6 h6 sM hM sD hD hF1 hL1 x0 x1 xM xD).1)
def dMid : Vec F S4096x1 .f32 := VD.read (Elt F) (VD.writes (Elt F) VD.junk (runMid (F := F) c i a0 h0 a1 h1 a2 h2 a3 h3 a4 h4 a5 h5 a6 h6 sM hM sD hD hF1 hL1 x0 x1 xM xD).2.1)
/-- the last tile's, and what it leaves in the result's staging buffer. -/
def oLast : Vec F S1x4096x128 .f32 := VOut.read (Elt F) (VOut.writes (Elt F) VOut.junk (runLast (F := F) c i a0 h0 a1 h1 a2 h2 a3 h3 a4 h4 a5 h5 a6 h6 sM hM sD hD hF1 hL0 x0 x1 x2 x3 x4 x5 xM xD).1)
def mLast : Vec F S4096x128 .f32 := VM.read (Elt F) (VM.writes (Elt F) VM.junk (runLast (F := F) c i a0 h0 a1 h1 a2 h2 a3 h3 a4 h4 a5 h5 a6 h6 sM hM sD hD hF1 hL0 x0 x1 x2 x3 x4 x5 xM xD).2.1)
def dLast : Vec F S4096x1 .f32 := VD.read (Elt F) (VD.writes (Elt F) VD.junk (runLast (F := F) c i a0 h0 a1 h1 a2 h2 a3 h3 a4 h4 a5 h5 a6 h6 sM hM sD hD hF1 hL0 x0 x1 x2 x3 x4 x5 xM xD).2.2.1)

end Cases

/-! ## The accumulators and the result's buffer, point by point -/

theorem first_of {t : Fin cfg0.N} (h : t.val % 16 = 0) : atFirst (grid0.coords t) := (atFirst_iff t).mpr h
theorem not_first_of {t : Fin cfg0.N} (h : ¬t.val % 16 = 0) : ¬atFirst (grid0.coords t) := fun h' => h ((atFirst_iff t).mp h')
theorem last_of {t : Fin cfg0.N} (h : t.val % 16 = 15) : atLast (grid0.coords t) := (atLast_iff t).mpr h
theorem not_last_of {t : Fin cfg0.N} (h : ¬t.val % 16 = 15) : ¬atLast (grid0.coords t) := fun h' => h ((atLast_iff t).mp h')
theorem not_last_of_first {t : Fin cfg0.N} (h : t.val % 16 = 0) : ¬atLast (grid0.coords t) := not_last_of (by omega)

/-- The two accumulators after the body at grid point `n`. -/
def accAt (c : Dev nD) : (n : ℕ) → n < cfg0.N → Vec F S4096x128 .f32 × Vec F S4096x1 .f32
  | 0, hn =>
    let t : Fin cfg0.N := ⟨0, hn⟩
    (mFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (first_of (t := t) (Nat.zero_mod _)) (not_last_of_first (t := t) (Nat.zero_mod _)) (iblk m c 0 t) (iblk m c 1 t),
     dFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (first_of (t := t) (Nat.zero_mod _)) (not_last_of_first (t := t) (Nat.zero_mod _)) (iblk m c 0 t) (iblk m c 1 t))
  | n + 1, hn =>
    let t : Fin cfg0.N := ⟨n + 1, hn⟩
    if h0 : (n + 1) % 16 = 0 then
      (mFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (first_of (t := t) h0) (not_last_of_first (t := t) h0) (iblk m c 0 t) (iblk m c 1 t),
       dFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (first_of (t := t) h0) (not_last_of_first (t := t) h0) (iblk m c 0 t) (iblk m c 1 t))
    else if h1 : (n + 1) % 16 = 15 then
      (mLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of (t := t) h0) (last_of (t := t) h1) (iblk m c 0 t) (iblk m c 1 t) (iblk m c 2 t) (iblk m c 3 t) (iblk m c 4 t) (iblk m c 5 t)
          (accAt c n (Nat.lt_of_succ_lt hn)).1 (accAt c n (Nat.lt_of_succ_lt hn)).2,
       dLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of (t := t) h0) (last_of (t := t) h1) (iblk m c 0 t) (iblk m c 1 t) (iblk m c 2 t) (iblk m c 3 t) (iblk m c 4 t) (iblk m c 5 t)
          (accAt c n (Nat.lt_of_succ_lt hn)).1 (accAt c n (Nat.lt_of_succ_lt hn)).2)
    else
      (mMid c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of (t := t) h0) (not_last_of (t := t) h1) (iblk m c 0 t) (iblk m c 1 t)
          (accAt c n (Nat.lt_of_succ_lt hn)).1 (accAt c n (Nat.lt_of_succ_lt hn)).2,
       dMid c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of (t := t) h0) (not_last_of (t := t) h1) (iblk m c 0 t) (iblk m c 1 t)
          (accAt c n (Nat.lt_of_succ_lt hn)).1 (accAt c n (Nat.lt_of_succ_lt hn)).2)

theorem pred_lt (t : Fin cfg0.N) : t.val - 1 < cfg0.N := Nat.lt_of_le_of_lt (Nat.sub_le _ _) t.isLt

/-- `accAt` at a batch's first tile; -/
theorem accAt_first (c : Dev nD) (t : Fin cfg0.N) (h0 : t.val % 16 = 0) :
    accAt m c t.val t.isLt =
      (mFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (first_of h0) (not_last_of_first h0) (iblk m c 0 t) (iblk m c 1 t),
       dFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (first_of h0) (not_last_of_first h0) (iblk m c 0 t) (iblk m c 1 t)) := by
  obtain ⟨n, hn⟩ := t
  cases n with
  | zero => exact rfl
  | succ n => exact (dif_pos h0).trans rfl

/-- at a middle tile; -/
theorem accAt_mid (c : Dev nD) (t : Fin cfg0.N) (h0 : ¬t.val % 16 = 0) (h1 : ¬t.val % 16 = 15) :
    accAt m c t.val t.isLt =
      (mMid c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of h0) (not_last_of h1) (iblk m c 0 t) (iblk m c 1 t)
          (accAt m c (t.val - 1) (pred_lt t)).1 (accAt m c (t.val - 1) (pred_lt t)).2,
       dMid c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of h0) (not_last_of h1) (iblk m c 0 t) (iblk m c 1 t)
          (accAt m c (t.val - 1) (pred_lt t)).1 (accAt m c (t.val - 1) (pred_lt t)).2) := by
  obtain ⟨n, hn⟩ := t
  cases n with
  | zero => exact absurd (Nat.zero_mod _) h0
  | succ n => exact (dif_neg h0).trans ((dif_neg h1).trans rfl)

/-- at a batch's last tile. -/
theorem accAt_last (c : Dev nD) (t : Fin cfg0.N) (h0 : ¬t.val % 16 = 0) (h1 : t.val % 16 = 15) :
    accAt m c t.val t.isLt =
      (mLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of h0) (last_of h1) (iblk m c 0 t) (iblk m c 1 t) (iblk m c 2 t) (iblk m c 3 t) (iblk m c 4 t) (iblk m c 5 t)
          (accAt m c (t.val - 1) (pred_lt t)).1 (accAt m c (t.val - 1) (pred_lt t)).2,
       dLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of h0) (last_of h1) (iblk m c 0 t) (iblk m c 1 t) (iblk m c 2 t) (iblk m c 3 t) (iblk m c 4 t) (iblk m c 5 t)
          (accAt m c (t.val - 1) (pred_lt t)).1 (accAt m c (t.val - 1) (pred_lt t)).2) := by
  obtain ⟨n, hn⟩ := t
  cases n with
  | zero => exact absurd (Nat.zero_mod _) h0
  | succ n => exact (dif_neg h0).trans ((dif_pos h1).trans rfl)

/-- The result's staging buffer after the body at grid point `t`: at a batch's last tile the rows that tile stores;
    elsewhere the body stores nothing there, and nothing consults this value. -/
def outAt (c : Dev nD) (t : Fin cfg0.N) : Vec F S1x4096x128 .f32 :=
  if h1 : t.val % 16 = 15 then
    oLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of (t := t) (by omega)) (last_of h1) (iblk m c 0 t) (iblk m c 1 t) (iblk m c 2 t) (iblk m c 3 t) (iblk m c 4 t) (iblk m c 5 t)
      (accAt m c (t.val - 1) (pred_lt t)).1 (accAt m c (t.val - 1) (pred_lt t)).2
  else VOut.read (Elt F) VOut.junk

theorem outAt_last (c : Dev nD) (t : Fin cfg0.N) (h0 : ¬t.val % 16 = 0) (h1 : t.val % 16 = 15) :
    outAt m c t = oLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of h0) (last_of h1) (iblk m c 0 t) (iblk m c 1 t) (iblk m c 2 t) (iblk m c 3 t) (iblk m c 4 t) (iblk m c 5 t)
      (accAt m c (t.val - 1) (pred_lt t)).1 (accAt m c (t.val - 1) (pred_lt t)).2 :=
  (dif_pos h1).trans rfl

/-! ## The region's invariant -/

/-- Before grid point `n`: the accumulators at anything before the first point, then at what the point before left. -/
def PhiS (c : Dev nD) : (n : ℕ) → n ≤ cfg0.N → sProp 𝕄
  | 0, _ => iprop((∃ d, owns (c : Thread nD τ) accM fullShare d) ∗ (∃ d, owns (c : Thread nD τ) accD fullShare d))
  | n + 1, hn => iprop(owns (c : Thread nD τ) accM fullShare (accAt m c n hn).1 ∗ owns (c : Thread nD τ) accD fullShare (accAt m c n hn).2)

theorem PhiS_zero (c : Dev nD) (n : ℕ) (h : n ≤ cfg0.N) (hz : n = 0) :
    PhiS m c n h = iprop((∃ d, owns (c : Thread nD τ) accM fullShare d) ∗ (∃ d, owns (c : Thread nD τ) accD fullShare d)) := by
  subst hz; rfl
theorem PhiS_succ (c : Dev nD) (n : ℕ) (hn : n < cfg0.N) :
    PhiS m c (n + 1) hn = iprop(owns (c : Thread nD τ) accM fullShare (accAt m c n hn).1 ∗ owns (c : Thread nD τ) accD fullShare (accAt m c n hn).2) := rfl
theorem PhiS_pos (c : Dev nD) (n : ℕ) (h : n ≤ cfg0.N) (hz : n ≠ 0) :
    PhiS m c n h = iprop(owns (c : Thread nD τ) accM fullShare (accAt m c (n - 1) (by omega)).1 ∗ owns (c : Thread nD τ) accD fullShare (accAt m c (n - 1) (by omega)).2) := by
  cases n with
  | zero => exact absurd rfl hz
  | succ n => rfl

/-! ## The proof data -/

/-- On core `c`: the arrays as the region finds them; after the body each input's buffer at its block and the
    result's at `outAt`; the invariant `PhiS`; nothing owed; the array read by both the sender and the receiver
    window held by each at one half share, every other input array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

/-- Each input's current staging buffer holds its block at every point. -/
theorem found_0 (c : Dev nD) (t : Fin cfg0.N) (d) : (dats m 0 c).before 0 t d = iblk m c 0 t := found_0_of m (dats m 0 c) (A_eq m c 0) (after_0 m c) t d
theorem found_1 (c : Dev nD) (t : Fin cfg0.N) (d) : (dats m 0 c).before 1 t d = iblk m c 1 t := found_1_of m (dats m 0 c) (A_eq m c 1) (after_1 m c) t d
theorem found_2 (c : Dev nD) (t : Fin cfg0.N) (d) : (dats m 0 c).before 2 t d = iblk m c 2 t := found_2_of m (dats m 0 c) (A_eq m c 2) (after_2 m c) t d
theorem found_3 (c : Dev nD) (t : Fin cfg0.N) (d) : (dats m 0 c).before 3 t d = iblk m c 3 t := found_3_of m (dats m 0 c) (A_eq m c 3) (after_3 m c) t d
theorem found_4 (c : Dev nD) (t : Fin cfg0.N) (d) : (dats m 0 c).before 4 t d = iblk m c 4 t := found_4_of m (dats m 0 c) (A_eq m c 4) (after_4 m c) t d
theorem found_5 (c : Dev nD) (t : Fin cfg0.N) (d) : (dats m 0 c).before 5 t d = iblk m c 5 t := found_5_of m (dats m 0 c) (A_eq m c 5) (after_5 m c) t d

/-- What the body hands back of an input window: its block, in place. -/
theorem leaves_0 (c : Dev nD) (t : Fin cfg0.N) : (dats m 0 c).leavesExact 0 t = owns (c : Thread nD τ) (ms0 t) fullShare (iblk m c 0 t) := by
  unfold Dat.leavesExact; rw [live_0 t, after_0]
theorem leaves_1 (c : Dev nD) (t : Fin cfg0.N) : (dats m 0 c).leavesExact 1 t = owns (c : Thread nD τ) (ms1 t) fullShare (iblk m c 1 t) := by
  unfold Dat.leavesExact; rw [live_1 t, after_1]
theorem leaves_2 (c : Dev nD) (t : Fin cfg0.N) : (dats m 0 c).leavesExact 2 t = owns (c : Thread nD τ) (ms2 t) fullShare (iblk m c 2 t) := by
  unfold Dat.leavesExact; rw [live_2 t, after_2]
theorem leaves_3 (c : Dev nD) (t : Fin cfg0.N) : (dats m 0 c).leavesExact 3 t = owns (c : Thread nD τ) (ms3 t) fullShare (iblk m c 3 t) := by
  unfold Dat.leavesExact; rw [live_3 t, after_3]
theorem leaves_4 (c : Dev nD) (t : Fin cfg0.N) : (dats m 0 c).leavesExact 4 t = owns (c : Thread nD τ) (ms4 t) fullShare (iblk m c 4 t) := by
  unfold Dat.leavesExact; rw [live_4 t, after_4]
theorem leaves_5 (c : Dev nD) (t : Fin cfg0.N) : (dats m 0 c).leavesExact 5 t = owns (c : Thread nD τ) (ms5 t) fullShare (iblk m c 5 t) := by
  unfold Dat.leavesExact; rw [live_5 t, after_5]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4800000 in
/-- The body at any point. The closed forms say which case the point is in; the inputs' buffers hold their blocks; the
    invariant hands over the accumulators at what the point before left (at anything before the first point, which
    is a batch's first tile) and takes them back at this point's contents; the result's buffer is handed back
    untouched unless this is a batch's last tile, where it takes the rows stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4, found_5]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5]
  have hN : t.val < 128 := lt_of_lt_of_eq t.isLt (show cfg0.N = 128 from N_0)
  by_cases h0 : t.val % 16 = 0
  · have h1 : ¬t.val % 16 = 15 := by omega
    rw [Dat.leavesExact_idle (dats m 0 c) 6 t (idle_out t (not_last_of h1)) (noFlush_out t (not_last_of h1))]
    rw [accAt_first m c t h0]
    unfold mFirst dFirst; (try dsimp only)
    have hrun := (runFirst (F := F) c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (first_of h0) (not_last_of_first h0) (iblk m c 0 t) (iblk m c 1 t)).2.2 Set.univ
    by_cases hz : t.val = 0
    · rw [PhiS_castSucc m c t, PhiS_zero m c _ _ hz]
      iintro ⟨⟨HM, HD⟩, Ho, ⟨%d0, H0⟩, ⟨%d1, H1⟩, ⟨%d2, H2⟩, ⟨%d3, H3⟩, ⟨%d4, H4⟩, ⟨%d5, H5⟩, ⟨%d6, H6⟩⟩
      iapply (hrun _)
      isplitl [H0]; · iexact H0
      isplitl [H1]; · iexact H1
      isplitl [HM]; · iexact HM
      isplitl [HD]; · iexact HD
      iintro ⟨H0, H1, ⟨%eM, HM⟩, ⟨%eD, HD⟩⟩
      isplitl [HM HD]
      · isplitl [HM]
        · unfold owns; iexists _; isplitr
          swap; · iexact HM
          ipureintro; exact View.read_writes_of_cover _ _ _ _ _ (coverM_first _ _ _ _ _ _ _ _ _ _ _ _ _ _ _ _ _ _ _ _ _ _ _ _)
        · unfold owns; iexists _; isplitr
          swap; · iexact HD
          ipureintro; exact View.read_writes_of_cover _ _ _ _ _ (coverD_first _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨HM, HD⟩, Ho, ⟨%d0, H0⟩, ⟨%d1, H1⟩, ⟨%d2, H2⟩, ⟨%d3, H3⟩, ⟨%d4, H4⟩, ⟨%d5, H5⟩, ⟨%d6, H6⟩⟩
      iapply (hrun _)
      isplitl [H0]; · iexact H0
      isplitl [H1]; · iexact H1
      isplitl [HM]; · iexists _; iexact HM
      isplitl [HD]; · iexists _; iexact HD
      iintro ⟨H0, H1, ⟨%eM, HM⟩, ⟨%eD, HD⟩⟩
      isplitl [HM HD]
      · isplitl [HM]
        · unfold owns; iexists _; isplitr
          swap; · iexact HM
          ipureintro; exact View.read_writes_of_cover _ _ _ _ _ (coverM_first _ _ _ _ _ _ _ _ _ _ _ _ _ _ _ _ _ _ _ _ _ _ _ _)
        · unfold owns; iexists _; isplitr
          swap; · iexact HD
          ipureintro; exact View.read_writes_of_cover _ _ _ _ _ (coverD_first _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h1 : t.val % 16 = 15
    · rw [show (dats m 0 c).leavesExact 6 t = owns (c : Thread nD τ) (ms6 t) fullShare ((dats m 0 c).after 6 t) from by
        unfold Dat.leavesExact; rw [live_out t (last_of h1)], after_6]
      rw [accAt_last m c t h0 h1, outAt_last m c t h0 h1]
      unfold oLast mLast dLast; (try dsimp only)
      rw [PhiS_castSucc m c t, PhiS_pos m c _ _ hz]
      iintro ⟨⟨HM, HD⟩, Ho, ⟨%d0, H0⟩, ⟨%d1, H1⟩, ⟨%d2, H2⟩, ⟨%d3, H3⟩, ⟨%d4, H4⟩, ⟨%d5, H5⟩, ⟨%d6, H6⟩⟩
      iapply ((runLast (F := F) c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of h0) (last_of h1) (iblk m c 0 t) (iblk m c 1 t) (iblk m c 2 t) (iblk m c 3 t) (iblk m c 4 t) (iblk m c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HM]; · iexact HM
      isplitl [HD]; · iexact HD
      iintro ⟨H0, H1, H2, H3, H4, H5, ⟨%e6, H6⟩, ⟨%eM, HM⟩, ⟨%eD, HD⟩⟩
      isplitl [HM HD]
      · isplitl [HM]
        · unfold owns; iexists _; isplitr
          swap; · iexact HM
          ipureintro; exact View.read_writes_of_cover _ _ _ _ _ (coverM_last _ _ _ _ _ _ _ _ _ _ _ _ _ _ _ _ _ _ _ _ _ _ _ _ _ _ _ _ _ _)
        · unfold owns; iexists _; isplitr
          swap; · iexact HD
          ipureintro; exact View.read_writes_of_cover _ _ _ _ _ (coverD_last _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverO_last _ _ _ _ _ _ _ _ _ _ _ _ _ _ _ _ _ _ _ _ _ _ _ _ _ _ _ _ _ _)
    · rw [Dat.leavesExact_idle (dats m 0 c) 6 t (idle_out t (not_last_of h1)) (noFlush_out t (not_last_of h1))]
      rw [accAt_mid m c t h0 h1]
      unfold mMid dMid; (try dsimp only)
      rw [PhiS_castSucc m c t, PhiS_pos m c _ _ hz]
      iintro ⟨⟨HM, HD⟩, Ho, ⟨%d0, H0⟩, ⟨%d1, H1⟩, ⟨%d2, H2⟩, ⟨%d3, H3⟩, ⟨%d4, H4⟩, ⟨%d5, H5⟩, ⟨%d6, H6⟩⟩
      iapply ((runMid (F := F) c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of h0) (not_last_of h1) (iblk m c 0 t) (iblk m c 1 t) _ _).2.2 Set.univ _)
      isplitl [H0]; · iexact H0
      isplitl [H1]; · iexact H1
      isplitl [HM]; · iexact HM
      isplitl [HD]; · iexact HD
      iintro ⟨H0, H1, ⟨%eM, HM⟩, ⟨%eD, HD⟩⟩
      isplitl [HM HD]
      · isplitl [HM]
        · unfold owns; iexists _; isplitr
          swap; · iexact HM
          ipureintro; exact View.read_writes_of_cover _ _ _ _ _ (coverM_mid _ _ _ _ _ _ _ _ _ _ _ _ _ _ _ _ _ _ _ _ _ _ _ _ _ _)
        · unfold owns; iexists _; isplitr
          swap; · iexact HD
          ipureintro; exact View.read_writes_of_cover _ _ _ _ _ (coverD_mid _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Mpnn

end
-- ==== Proof.LibSharedFrame.lean ====
/-
  The frame run of a one-region pipeline program whose windows may SHARE ARRAYS (one array handed to the kernel through
  several input windows), with a tracking invariant: a general lemma, stated for any printed program.

  The library's frame runs (`Pipeline.θ_run_frame`, `θ_run_frame_track`) take the layout bundle of a pipeline whose
  windows' arrays are pairwise distinct, and deal each array to its one window whole. When two input windows read one
  array that bundle does not exist; the launch theorem that fits is `Pipeline.θ_run_region_noSem_shared`, which asks
  instead how the distinct buffers behind the arrays, each whole at the region-entry contents, make the proof data's
  windows' arrays at their shares (`hsplit`: an array read by several input windows split among them by
  `pointsTo_share`, the proof data's `q` naming each window's share). `θ_run_frame_track_shared` is that theorem
  with everything a frame certificate of a kernel with no semaphore of its own supplies the same way every time:
  the pipeline library's rounds copy as the whole user algebra, nothing routed around the region but the unscoped
  buffers that are no window's array (read back at the end at their region-entry contents), the kernel's scratch
  buffers entering the invariant at anything (`hin`) and leaving it at anything (`hout`). It concludes the library's
  `Pipeline.FramePost`: every window's array at `Dat.arrAt … N` (windows on one array agree), every other unscoped
  buffer at its region-entry contents — from which a frame claim and a value claim are read as from `θ_run_frame`.
  The generator register is not handed to the invariant: a body that draws random bits is outside this lemma.
-/
import Idealize.ShloMosaic.Lib.Pipeline.Frame

noncomputable section

namespace Cert.LibSharedFrame

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- THE FRAME RUN, windows sharing arrays, with a tracking invariant. `hinj`, `hw`, `hne`, `harr`, `hstage` are the
    decided layout facts a program's generated launch module states one by one when it cannot bundle them
    (`Gen.cellOf_inj`, `Gen.winFacts₀K`, `Gen.block_posK`, `Gen.arr_wholeK`, `Gen.stage_wholeK`); `hbody` is the body
    obligation; `hmain` @main up to the region with the buffers' contents there (`V`); `hsplit` deals the buffers
    behind the windows' arrays to the windows; `hin` / `hout` take the kernel's scratch into the invariant before the
    first point and out of it after the last. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (Ix := Unit) (Name := ℕ) (U := UR sig nD τ) (Lvl := ℕ) (cfgs p).spec c (V c) : sProp 𝕄)
      ⊢ (dats p c).arrays ((dats p c).arrAt · 0))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N)
      ⊢ (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g) (FramePost cfgs dats p V) :=
  θ_run_region_noSem_shared cfgs dats () hinj p hw emb₁ defs₀ 𝒱₀ m g main hbody hne harr hstage howed
    (u₀ := initOf (cells cfgs hinj) (launchToks cfgs hinj)) (hu₀ := .rfl) (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H; isplitr; · iempintro
      iexact H)
    (hin := fun c => (show iprop(emp ∗ scopedRest (Ix := Unit) (Name := ℕ) (U := UR sig nD τ) (Lvl := ℕ) (Val := Val) (cfgs p).spec c)
        ⊢ (scopedRest (cfgs p).spec c : sProp 𝕄) from by iintro ⟨-, H⟩; iexact H).trans (hin c))
    (hout := fun c => (hout c).trans (by
      iintro H; isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h => h)

/-- info: 'Cert.LibSharedFrame.θ_run_frame_track_shared' depends on axioms: [propext, Classical.choice, Quot.sound] -/
#guard_msgs in #print axioms θ_run_frame_track_shared

end Cert.LibSharedFrame

end
-- ==== Proof.K.Launch.lean ====
/-
  The launch of the message-passing pipeline and what it leaves in memory, for any float type.
  The sender window and the receiver window read one array, so the array's full share is dealt to them as its two
  halves when the region is entered, and is whole again when it is left; every other array goes to its one window
  whole. The bias vector itself is no window's array (the region reads its reshaped copy): it bypasses the region.
  The launch itself is the general lemma for windows that share an array.
  `run_main`: every weakly fair execution of @main terminates, each window's array ending at the contents the
  pipeline's write-backs leave (an input array: its entry contents), the bias vector at its entry contents.
  `frame`: in particular the five argument arrays end as launched.
-/
import proofs.«118113_j2903397893033_1_alg».proof.Proof.K.Body
import proofs.«118113_j2903397893033_1_alg».proof.Proof.LibSharedFrame

set_option maxRecDepth 16384

noncomputable section

namespace Cert.Kernel.Mpnn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays dealt to the windows -/

/-- A window's array is a whole buffer: holding it is holding the buffer behind it. -/
theorem arr_pt (c : Dev nD) (w : Fin cfg0.W) (q : PosShare TreeShare) (f : Buf (Elt F) ((cfg0.win w).arr.view.loc (c : Thread nD τ))) :
    ((cfg0.win w).arr.view.loc (c : Thread nD τ) ↦[(cfg0.win w).arr.view.set]{q} f : sProp 𝕄)
      = (((c : Thread nD τ).loc (Pipeline.arrRef spec0 w)) ↦{q} f) := by
  rw [(arr_whole0 w).set_eq_univ]

/-- The distinct buffers behind the seven windows, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0)
          ∗ (((c : Thread nD τ).loc main_arg2) ↦{fullShare} W main_arg2) ∗ (((c : Thread nD τ).loc main_arg3) ↦{fullShare} W main_arg3)
          ∗ (((c : Thread nD τ).loc main_v0) ↦{fullShare} W main_v0) ∗ (((c : Thread nD τ).loc main_v1) ↦{fullShare} W main_v1)) :=
  bigSep_eq_bigSepL_of_eq [main_arg1, main_arg0, main_arg2, main_arg3, main_v0, main_v1] (by decide) (by decide) _

/-- The share each window holds its array at: the sender and the receiver window the two halves of the node-feature
    array's, every other window its array's whole. -/
theorem share_0 (c : Dev nD) : (dats m 0 c).share 0 = fullShare := by
  unfold Dat.share; rw [if_neg (show ¬((cfg0.win 0).isOut = true) from by decide)]; dsimp only [dats]
theorem share_1 (c : Dev nD) : (dats m 0 c).share 1 = fullShare.left := by
  unfold Dat.share; rw [if_neg (show ¬((cfg0.win 1).isOut = true) from by decide)]; dsimp only [dats]
theorem share_2 (c : Dev nD) : (dats m 0 c).share 2 = fullShare.right := by
  unfold Dat.share; rw [if_neg (show ¬((cfg0.win 2).isOut = true) from by decide)]; dsimp only [dats]
theorem share_3 (c : Dev nD) : (dats m 0 c).share 3 = fullShare := by
  unfold Dat.share; rw [if_neg (show ¬((cfg0.win 3).isOut = true) from by decide)]; dsimp only [dats]
theorem share_4 (c : Dev nD) : (dats m 0 c).share 4 = fullShare := by
  unfold Dat.share; rw [if_neg (show ¬((cfg0.win 4).isOut = true) from by decide)]; dsimp only [dats]
theorem share_5 (c : Dev nD) : (dats m 0 c).share 5 = fullShare := by
  unfold Dat.share; rw [if_neg (show ¬((cfg0.win 5).isOut = true) from by decide)]; dsimp only [dats]
theorem share_6 (c : Dev nD) : (dats m 0 c).share 6 = fullShare := by
  unfold Dat.share; rw [if_pos (show (cfg0.win 6).isOut = true from by decide)]

/-- Before any write-back an array holds what the region found in it. -/
theorem arrAt_zero (c : Dev nD) (w : Fin cfg0.W) : (dats m 0 c).arrAt w 0 = V m c (Pipeline.arrRef spec0 w) := A_eq m c w

/-- The windows' arrays as the proof data hold them, one by one. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_arg1) ↦{fullShare} G 0) ∗ (((c : Thread nD τ).loc main_arg0) ↦{fullShare.left} G 1)
          ∗ (((c : Thread nD τ).loc main_arg0) ↦{fullShare.right} G 2) ∗ (((c : Thread nD τ).loc main_arg2) ↦{fullShare} G 3)
          ∗ (((c : Thread nD τ).loc main_arg3) ↦{fullShare} G 4) ∗ (((c : Thread nD τ).loc main_v0) ↦{fullShare} G 5)
          ∗ (((c : Thread nD τ).loc main_v1) ↦{fullShare} G 6)) := by
  unfold Dat.arrays
  rw [bigSep_W0]
  simp only [share_0, share_1, share_2, share_3, share_4, share_5, share_6, View.set_whole]

/-- The six buffers behind the seven windows, each whole, are the windows' arrays as the proof data hold them at the
    region's entry: the node-feature array split into its two half shares for the sender and the receiver window. -/
theorem arrays_in (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  simp only [arrAt_zero]
  iintro ⟨Hadj, Hx, Hwm, Hwu, Hb, Ho⟩
  ihave Hx' := (pointsTo_share (PosShare.mem_left_op_right fullShare)).1 $$ Hx
  icases Hx' with ⟨Hxl, Hxr⟩
  isplitl [Hadj]; · iexact Hadj
  isplitl [Hxl]; · iexact Hxl
  isplitl [Hxr]; · iexact Hxr
  isplitl [Hwm]; · iexact Hwm
  isplitl [Hwu]; · iexact Hwu
  isplitl [Hb]; · iexact Hb
  iexact Ho

/-! ## The run -/

set_option backward.isDefEq.respectTransparency.types false in
/-- The frame run for windows that share an array (the general lemma), at this pipeline: its layout facts, the body
    obligation, @main up to the region, the arrays dealt to the windows, and the two accumulators taken into the
    invariant at anything before the first point and handed back at anything after the last. -/
theorem run_main : θ_run defs (onTc (τ := τ) (main (F := F))) (s₀ m ρ) (Pipeline.FramePost cfgs (dats m) 0 (V m)) :=
  Cert.LibSharedFrame.θ_run_frame_track_shared cfgs (dats m) (0 : Fin 1) cellOf_inj winFacts₀0 block_pos0 arr_whole0 stage_whole0
    defs₀ Variants.none m ρ main
    (hbody := fun c => (body_obligation m c).loose) (howed := fun _ _ => rfl)
    (V := V m) (hmain := hmain m Variants.none) (hsplit := arrays_in m)
    (hin := fun c => by
      rw [show (dats m 0 c).Φ 0 = PhiS m c 0 (Nat.zero_le _) from rfl, PhiS_zero m c 0 _ rfl, scratch_eq])
    (hout := fun c => by
      rw [show (dats m 0 c).Φ (Fin.last cfg0.N) = PhiS m c (Fin.last cfg0.N).val (Nat.le_of_lt_succ (Fin.last cfg0.N).isLt) from rfl,
        PhiS_pos m c _ _ (by rw [Fin.val_last]; have : cfg0.N = 128 := N_0; omega), scratch_eq]
      iintro ⟨HM, HD⟩
      isplitl [HM]
      · iexists _; iexact HM
      · iexists _; iexact HD)

/-- info: 'Cert.Kernel.Mpnn.run_main' depends on axioms: [propext, Classical.choice, Quot.sound] -/
#guard_msgs in #print axioms run_main

/-! ## The frame -/

/-- Every argument array ends as launched: four of them are input windows' arrays, which the pipeline never writes
    and no host operation wrote before the region; the bias vector bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 1).trans (((dats m 0 c).arrAt_in 1 rfl _).trans ((A_eq m c 1).trans (V_main_arg0 m c))),
     ((h c).1 0).trans (((dats m 0 c).arrAt_in 0 rfl _).trans ((A_eq m c 0).trans (V_main_arg1 m c))),
     ((h c).1 3).trans (((dats m 0 c).arrAt_in 3 rfl _).trans ((A_eq m c 3).trans (V_main_arg2 m c))),
     ((h c).1 4).trans (((dats m 0 c).arrAt_in 4 rfl _).trans ((A_eq m c 4).trans (V_main_arg3 m c))),
     ((h c).2 main_arg4 (Pipeline.mem_restRefs_of main_arg4 (by decide) (by decide))).trans (V_main_arg4 m c)⟩) (run_main m ρ)

end Cert.Kernel.Mpnn

end
-- ==== Proof.KI.Setting.lean ====
/-
  The message-passing kernel's setting, for any float type: one pipelined region over the grid (batch b, sender
  tile i) = (8, 16), seven windows — the adjacency tile adj[b, 256 i .. 256 i + 256, :], the sender rows
  x[b, 256 i .. 256 i + 256, :], the receiver rows x[b, :, :] (the SAME array as the sender window's), the two
  weight matrices, the bias row (the bias vector reshaped by the one host operation before the region), and the
  result rows out[b, :, :] — and two scratch accumulators carried from tile to tile: the neighbour sums
  msum[j, f] and the in-degrees deg[j].
  Here: what the region finds in each array at its entry, each window's block at a grid point, that an input
  window's staging buffer holds that block whenever the body runs, the two branch conditions in closed form
  (the reset at i = 0, the finish at i = 15), and names for the memrefs the body is called with.
-/
import proofs.«118113_j2903397893033_1_alg».proof.Proof.Gen.KernelIdeal.Launch
import proofs.«118113_j2903397893033_1_alg».proof.Proof.Gen.KernelIdeal.Skeleton
import proofs.«118113_j2903397893033_1_alg».proof.Proof.Gen.KernelIdeal.Points
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Mpnn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the launch contents after the one host operation, the reshape of
    the bias vector into a row. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is that host operation followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes only the bias row: every argument array enters the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window the body only reads holds its block whenever the body runs, fetched at that point or not (an
    unfetched window's block index has not moved), for any proof data that names the region-entry arrays and
    says the body leaves the block in place. -/
theorem found_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem found_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem found_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem found_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two branches, in closed form over the grid -/

/-- The first branch is taken at the first sender tile of each batch: there the accumulators are reset. -/
abbrev atFirst (i : grid0.Coords) : Prop := (Scalar.cmpi .ne (Scalar.extui (Scalar.cmpi .eq (BitVec.ofNat 32 (i 1).val) 0#32)) 0#32) = 1#1
theorem atFirst_iff : ∀ t : Fin cfg0.N, atFirst (grid0.coords t) ↔ t.val % 16 = 0 :=
  (by decide +kernel : ∀ t : Fin grid0.N, atFirst (grid0.coords t) ↔ t.val % 16 = 0)

/-- The second branch is taken at the last sender tile of each batch: there the result rows are computed and stored. -/
abbrev atLast (i : grid0.Coords) : Prop := k0_cond2 i = 1#1
theorem atLast_iff : ∀ t : Fin cfg0.N, atLast (grid0.coords t) ↔ t.val % 16 = 15 :=
  (by decide +kernel : ∀ t : Fin grid0.N, atLast (grid0.coords t) ↔ t.val % 16 = 15)

/-! ## Where the result window is idle -/

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
/-- Away from a batch's last tile the body stores nothing into the result window and the pipeline does not write it back; -/
theorem idle_out : ∀ t : Fin cfg0.N, ¬atLast (grid0.coords t) → cfg0.idle 6 (grid0.coords t) = true := by decide +kernel
theorem noFlush_out : ∀ t : Fin cfg0.N, ¬atLast (grid0.coords t) → (cfg0.win 6).flush t = false := by decide +kernel
/-- at the last tile it is live. -/
theorem live_out : ∀ t : Fin cfg0.N, atLast (grid0.coords t) → cfg0.idle 6 (grid0.coords t) = false := by decide +kernel

/-! ## The memrefs the body is called with -/

abbrev ms0 (t : Fin cfg0.N) : Memref sig .tc .vmem S1x256x4096 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x4096x128 .f32 := win0_6.stage (cfg0.slots t 6)
abbrev hs6 (t : Fin cfg0.N) : (ms6 t).IsWhole := hstage0_6 ((cfg0.slots t 6).cast nbuf0_6)
/-- The two accumulators: whole scratch buffers of the kernel's own. -/
abbrev accM : Memref sig .tc .vmem S4096x128 .f32 := Memref.whole cc0_scratch0
abbrev accD : Memref sig .tc .vmem S4096x1 .f32 := Memref.whole cc0_scratch1
/-- Views through which the contents of the result's staging buffer and of the accumulators are stated. -/
abbrev VOut : View sig .tc .vmem S1x4096x128 .f32 := (Memref.whole cc0_stg6_0 : Memref sig .tc .vmem S1x4096x128 .f32).view
abbrev VM : View sig .tc .vmem S4096x128 .f32 := accM.view
abbrev VD : View sig .tc .vmem S4096x1 .f32 := accD.view

/-- The kernel's scratch, as the launch hands it over: both accumulators at some contents. -/
theorem scratch_eq (c : Dev nD) :
    (Pipeline.scopedRest (Ix := Unit) (Name := ℕ) (U := UR sig nD τ) (Lvl := ℕ) (Val := Elt F) spec0 c : sProp 𝕄)
      = iprop((∃ d, owns (c : Thread nD τ) accM fullShare d) ∗ (∃ d, owns (c : Thread nD τ) accD fullShare d)) := by
  rw [scopedRest0_eq]; simp only [accM, accD, owns_whole]; try rfl

end Cert.KernelIdeal.Mpnn

end
-- ==== Proof.KI.RunFirst.lean ====
/-
  The body at the first sender tile of a batch (the reset is taken, the finish is not), on any whole memrefs:
  it overwrites both accumulators with zeros, then adds this tile's contribution — the tile's 0/1 mask contracted
  with the tile's sender rows over the tile's 256 senders, and with a column of ones — and stores nothing else.
  The run is symbolic; what each accumulator ends with is recorded as the list of pieces its stores wrote.
-/
import proofs.«118113_j2903397893033_1_alg».proof.Proof.KI.Setting

set_option maxRecDepth 16384

noncomputable section

namespace Cert.KernelIdeal.Mpnn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid0.Coords)
  (a0 : Memref sig .tc .vmem S1x256x4096 .i32) (h0 : a0.IsWhole)
  (a1 : Memref sig .tc .vmem S1x256x128 .f32) (h1 : a1.IsWhole)
  (a2 : Memref sig .tc .vmem S1x4096x128 .f32) (h2 : a2.IsWhole)
  (a3 : Memref sig .tc .vmem S128x128 .f32) (h3 : a3.IsWhole)
  (a4 : Memref sig .tc .vmem S128x128 .f32) (h4 : a4.IsWhole)
  (a5 : Memref sig .tc .vmem S1x128 .f32) (h5 : a5.IsWhole)
  (a6 : Memref sig .tc .vmem S1x4096x128 .f32) (h6 : a6.IsWhole)
  (sM : Memref sig .tc .vmem S4096x128 .f32) (hM : sM.IsWhole)
  (sD : Memref sig .tc .vmem S4096x1 .f32) (hD : sD.IsWhole)

set_option maxHeartbeats 4000000 in
/-- From the adjacency tile at `x0`, the sender rows at `x1` and the accumulators at anything, the body runs and
    hands back the two inputs as they were and each accumulator with its pieces written. -/
noncomputable def runFirst (hc0 : atFirst i) (hc1 : ¬atLast i)
    (x0 : Vec F S1x256x4096 .i32) (x1 : Vec F S1x256x128 .f32) :
    Σ' (LM : List (View.Piece (Elt F) S4096x128 .f32)), { LD : List (View.Piece (Elt F) S4096x1 .f32) //
      ∀ (E : Set ℕ) (K : PUnit → sProp 𝕄),
        iprop(owns (c : Thread nD τ) a0 fullShare x0 ∗ owns (c : Thread nD τ) a1 fullShare x1
            ∗ (∃ d, owns (c : Thread nD τ) sM fullShare d) ∗ (∃ d, owns (c : Thread nD τ) sD fullShare d)
            ∗ (iprop(owns (c : Thread nD τ) a0 fullShare x0 ∗ owns (c : Thread nD τ) a1 fullShare x1
                ∗ (∃ f, sM.view.loc (c : Thread nD τ) ↦[sM.view.set]{fullShare} sM.view.writes (Elt F) f LM)
                ∗ (∃ f, sD.view.loc (c : Thread nD τ) ↦[sD.view.set]{fullShare} sD.view.writes (Elt F) f LD)) -∗ K ⟨⟩))
          ⊢ wp frame (wpE (defs₀ (F := F)) Variants.none c none) E (cc0__mpnn_kernel i a0 h0 a1 h1 a2 h2 a3 h3 a4 h4 a5 h5 a6 h6 sM hM sD hD) K } := by
  refine ⟨?_, ?_, fun E K => ?run⟩
  case run =>
    simp only [cc0__mpnn_kernel_eq_skeleton]; unfold cc0__mpnn_kernel_skel
    unfold owns
    iintro ⟨⟨%f0, %hf0, H0⟩, ⟨%f1, %hf1, H1⟩, ⟨%dM, %fM, -, HM⟩, ⟨%dD, %fD, -, HD⟩, Hk⟩
    obtain rfl := h0.eq_unread hf0; obtain rfl := h1.eq_unread hf1
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [HM]; · iexists _; iexact HM
    iexists _; iexact HD

end Cert.KernelIdeal.Mpnn

end
-- ==== Proof.KI.RunMid.lean ====
/-
  The body at a middle sender tile of a batch (neither the reset nor the finish is taken), on any whole memrefs:
  it adds this tile's contribution to both accumulators, which it finds at what the tile before left.
-/
import proofs.«118113_j2903397893033_1_alg».proof.Proof.KI.RunFirst

set_option maxRecDepth 16384

noncomputable section

namespace Cert.KernelIdeal.Mpnn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid0.Coords)
  (a0 : Memref sig .tc .vmem S1x256x4096 .i32) (h0 : a0.IsWhole)
  (a1 : Memref sig .tc .vmem S1x256x128 .f32) (h1 : a1.IsWhole)
  (a2 : Memref sig .tc .vmem S1x4096x128 .f32) (h2 : a2.IsWhole)
  (a3 : Memref sig .tc .vmem S128x128 .f32) (h3 : a3.IsWhole)
  (a4 : Memref sig .tc .vmem S128x128 .f32) (h4 : a4.IsWhole)
  (a5 : Memref sig .tc .vmem S1x128 .f32) (h5 : a5.IsWhole)
  (a6 : Memref sig .tc .vmem S1x4096x128 .f32) (h6 : a6.IsWhole)
  (sM : Memref sig .tc .vmem S4096x128 .f32) (hM : sM.IsWhole)
  (sD : Memref sig .tc .vmem S4096x1 .f32) (hD : sD.IsWhole)

set_option maxHeartbeats 4000000 in
/-- From the adjacency tile at `x0`, the sender rows at `x1` and the accumulators at `xM`, `xD`, the body runs and
    hands back the two inputs as they were and each accumulator with its pieces written. -/
noncomputable def runMid (hc0 : ¬atFirst i) (hc1 : ¬atLast i)
    (x0 : Vec F S1x256x4096 .i32) (x1 : Vec F S1x256x128 .f32) (xM : Vec F S4096x128 .f32) (xD : Vec F S4096x1 .f32) :
    Σ' (LM : List (View.Piece (Elt F) S4096x128 .f32)), { LD : List (View.Piece (Elt F) S4096x1 .f32) //
      ∀ (E : Set ℕ) (K : PUnit → sProp 𝕄),
        iprop(owns (c : Thread nD τ) a0 fullShare x0 ∗ owns (c : Thread nD τ) a1 fullShare x1
            ∗ owns (c : Thread nD τ) sM fullShare xM ∗ owns (c : Thread nD τ) sD fullShare xD
            ∗ (iprop(owns (c : Thread nD τ) a0 fullShare x0 ∗ owns (c : Thread nD τ) a1 fullShare x1
                ∗ (∃ f, sM.view.loc (c : Thread nD τ) ↦[sM.view.set]{fullShare} sM.view.writes (Elt F) f LM)
                ∗ (∃ f, sD.view.loc (c : Thread nD τ) ↦[sD.view.set]{fullShare} sD.view.writes (Elt F) f LD)) -∗ K ⟨⟩))
          ⊢ wp frame (wpE (defs₀ (F := F)) Variants.none c none) E (cc0__mpnn_kernel i a0 h0 a1 h1 a2 h2 a3 h3 a4 h4 a5 h5 a6 h6 sM hM sD hD) K } := by
  refine ⟨?_, ?_, fun E K => ?run⟩
  case run =>
    simp only [cc0__mpnn_kernel_eq_skeleton]; unfold cc0__mpnn_kernel_skel
    unfold owns
    iintro ⟨⟨%f0, %hf0, H0⟩, ⟨%f1, %hf1, H1⟩, ⟨%fM, %hfM, HM⟩, ⟨%fD, %hfD, HD⟩, Hk⟩
    obtain rfl := h0.eq_unread hf0; obtain rfl := h1.eq_unread hf1
    obtain rfl := hM.eq_unread hfM; obtain rfl := hD.eq_unread hfD
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [HM]; · iexists _; iexact HM
    iexists _; iexact HD

end Cert.KernelIdeal.Mpnn

end
-- ==== Proof.KI.RunLast.lean ====
/-
  The body at the last sender tile of a batch (the finish is taken, the reset is not), on any whole memrefs:
  it adds this tile's contribution to both accumulators, then divides the neighbour sums by the in-degrees
  clamped at one, multiplies the means by the message weights and the receiver rows by the update weights, adds
  the two and the bias row, clamps at zero and stores the rows whole into the result's staging buffer.
-/
import proofs.«118113_j2903397893033_1_alg».proof.Proof.KI.RunMid

set_option maxRecDepth 16384

noncomputable section

namespace Cert.KernelIdeal.Mpnn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (i : grid0.Coords)
  (a0 : Memref sig .tc .vmem S1x256x4096 .i32) (h0 : a0.IsWhole)
  (a1 : Memref sig .tc .vmem S1x256x128 .f32) (h1 : a1.IsWhole)
  (a2 : Memref sig .tc .vmem S1x4096x128 .f32) (h2 : a2.IsWhole)
  (a3 : Memref sig .tc .vmem S128x128 .f32) (h3 : a3.IsWhole)
  (a4 : Memref sig .tc .vmem S128x128 .f32) (h4 : a4.IsWhole)
  (a5 : Memref sig .tc .vmem S1x128 .f32) (h5 : a5.IsWhole)
  (a6 : Memref sig .tc .vmem S1x4096x128 .f32) (h6 : a6.IsWhole)
  (sM : Memref sig .tc .vmem S4096x128 .f32) (hM : sM.IsWhole)
  (sD : Memref sig .tc .vmem S4096x1 .f32) (hD : sD.IsWhole)

set_option maxHeartbeats 4000000 in
/-- From the six input blocks at `x0` … `x5`, the result's buffer at anything and the accumulators at `xM`, `xD`,
    the body runs and hands back the inputs as they were, and the result's buffer and each accumulator with its
    pieces written. -/
noncomputable def runLast (hc0 : ¬atFirst i) (hc1 : atLast i)
    (x0 : Vec F S1x256x4096 .i32) (x1 : Vec F S1x256x128 .f32) (x2 : Vec F S1x4096x128 .f32) (x3 x4 : Vec F S128x128 .f32)
    (x5 : Vec F S1x128 .f32) (xM : Vec F S4096x128 .f32) (xD : Vec F S4096x1 .f32) :
    Σ' (LO : List (View.Piece (Elt F) S1x4096x128 .f32)) (LM : List (View.Piece (Elt F) S4096x128 .f32)), { LD : List (View.Piece (Elt F) S4096x1 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ (∃ d, owns (c : Thread nD τ) a6 fullShare d)
            ∗ owns (c : Thread nD τ) sM fullShare xM ∗ owns (c : Thread nD τ) sD fullShare xD
            ∗ (iprop(owns (c : Thread nD τ) a0 fullShare x0 ∗ owns (c : Thread nD τ) a1 fullShare x1 ∗ owns (c : Thread nD τ) a2 fullShare x2
                ∗ owns (c : Thread nD τ) a3 fullShare x3 ∗ owns (c : Thread nD τ) a4 fullShare x4 ∗ owns (c : Thread nD τ) a5 fullShare x5
                ∗ (∃ f, a6.view.loc (c : Thread nD τ) ↦[a6.view.set]{fullShare} a6.view.writes (Elt F) f LO)
                ∗ (∃ f, sM.view.loc (c : Thread nD τ) ↦[sM.view.set]{fullShare} sM.view.writes (Elt F) f LM)
                ∗ (∃ f, sD.view.loc (c : Thread nD τ) ↦[sD.view.set]{fullShare} sD.view.writes (Elt F) f LD)) -∗ K ⟨⟩))
          ⊢ wp frame (wpE (defs₀ (F := F)) Variants.none c none) E (cc0__mpnn_kernel i a0 h0 a1 h1 a2 h2 a3 h3 a4 h4 a5 h5 a6 h6 sM hM sD hD) K } := by
  refine ⟨?_, ?_, ?_, fun E K => ?run⟩
  case run =>
    simp only [cc0__mpnn_kernel_eq_skeleton]; unfold cc0__mpnn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fM, %hfM, HM⟩, ⟨%fD, %hfD, HD⟩, Hk⟩
    obtain rfl := h0.eq_unread hf0; obtain rfl := h1.eq_unread hf1; obtain rfl := h2.eq_unread hf2
    obtain rfl := h3.eq_unread hf3; obtain rfl := h4.eq_unread hf4; obtain rfl := h5.eq_unread hf5
    obtain rfl := hM.eq_unread hfM; obtain rfl := hD.eq_unread hfD
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [HM]; · iexists _; iexact HM
    iexists _; iexact HD

end Cert.KernelIdeal.Mpnn

end
-- ==== Proof.KI.Body.lean ====
/-
  The proof data of the message-passing pipeline and its body obligation, for any float type.
  What a tile's body leaves in a buffer is the pieces its stores wrote, read back; each buffer a case stores
  into is stored whole, so the pieces cover it and the contents do not depend on what the buffer held.
  The accumulators after grid point n (`accAt`) follow the tiles of a batch: the first tile's body (n ≡ 0 mod 16)
  starts from zero, every later one continues from what the tile before left. The result's staging buffer
  (`outAt`) is written at a batch's last tile (n ≡ 15 mod 16) from the accumulators that tile completes, and is
  left alone at the other tiles, where the pipeline does not write it back either.
  The region's invariant before point n: at n = 0 the two scratch buffers at anything, afterwards at `accAt (n - 1)`.
  The sender and the receiver windows read ONE array: they hold it at its two half shares.
-/
import proofs.«118113_j2903397893033_1_alg».proof.Proof.KI.RunLast

set_option maxRecDepth 16384

noncomputable section

namespace Cert.KernelIdeal.Mpnn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, on any memrefs -/

section Cases
variable (c : Dev nD) (i : grid0.Coords)
  (a0 : Memref sig .tc .vmem S1x256x4096 .i32) (h0 : a0.IsWhole)
  (a1 : Memref sig .tc .vmem S1x256x128 .f32) (h1 : a1.IsWhole)
  (a2 : Memref sig .tc .vmem S1x4096x128 .f32) (h2 : a2.IsWhole)
  (a3 : Memref sig .tc .vmem S128x128 .f32) (h3 : a3.IsWhole)
  (a4 : Memref sig .tc .vmem S128x128 .f32) (h4 : a4.IsWhole)
  (a5 : Memref sig .tc .vmem S1x128 .f32) (h5 : a5.IsWhole)
  (a6 : Memref sig .tc .vmem S1x4096x128 .f32) (h6 : a6.IsWhole)
  (sM : Memref sig .tc .vmem S4096x128 .f32) (hM : sM.IsWhole)
  (sD : Memref sig .tc .vmem S4096x1 .f32) (hD : sD.IsWhole)

variable (hF0 : atFirst i) (hF1 : ¬atFirst i) (hL0 : atLast i) (hL1 : ¬atLast i)
  (x0 : Vec F S1x256x4096 .i32) (x1 : Vec F S1x256x128 .f32) (x2 : Vec F S1x4096x128 .f32) (x3 x4 : Vec F S128x128 .f32)
  (x5 : Vec F S1x128 .f32) (xM : Vec F S4096x128 .f32) (xD : Vec F S4096x1 .f32)

/-- Each case's stores tile the buffers they write. -/
theorem coverM_first (y : S4096x128.Idx) : ∃ pc ∈ (runFirst (F := F) c i a0 h0 a1 h1 a2 h2 a3 h3 a4 h4 a5 h5 a6 h6 sM hM sD hD hF0 hL1 x0 x1).1, y ∈ pc.1.set :=
  View.cover_of_tiledL (runFirst (F := F) c i a0 h0 a1 h1 a2 h2 a3 h3 a4 h4 a5 h5 a6 h6 sM hM sD hD hF0 hL1 x0 x1).1 S4096x128.size (by sl_kernel_rfl) y
theorem coverD_first (y : S4096x1.Idx) : ∃ pc ∈ (runFirst (F := F) c i a0 h0 a1 h1 a2 h2 a3 h3 a4 h4 a5 h5 a6 h6 sM hM sD hD hF0 hL1 x0 x1).2.1, y ∈ pc.1.set :=
  View.cover_of_tiledL (runFirst (F := F) c i a0 h0 a1 h1 a2 h2 a3 h3 a4 h4 a5 h5 a6 h6 sM hM sD hD hF0 hL1 x0 x1).2.1 S4096x1.size (by sl_kernel_rfl) y
theorem coverM_mid (y : S4096x128.Idx) : ∃ pc ∈ (runMid (F := F) c i a0 h0 a1 h1 a2 h2 a3 h3 a4 h4 a5 h5 a6 h6 sM hM sD hD hF1 hL1 x0 x1 xM xD).1, y ∈ pc.1.set :=
  View.cover_of_tiledL (runMid (F := F) c i a0 h0 a1 h1 a2 h2 a3 h3 a4 h4 a5 h5 a6 h6 sM hM sD hD hF1 hL1 x0 x1 xM xD).1 S4096x128.size (by sl_kernel_rfl) y
theorem coverD_mid (y : S4096x1.Idx) : ∃ pc ∈ (runMid (F := F) c i a0 h0 a1 h1 a2 h2 a3 h3 a4 h4 a5 h5 a6 h6 sM hM sD hD hF1 hL1 x0 x1 xM xD).2.1, y ∈ pc.1.set :=
  View.cover_of_tiledL (runMid (F := F) c i a0 h0 a1 h1 a2 h2 a3 h3 a4 h4 a5 h5 a6 h6 sM hM sD hD hF1 hL1 x0 x1 xM xD).2.1 S4096x1.size (by sl_kernel_rfl) y
theorem coverO_last (y : S1x4096x128.Idx) : ∃ pc ∈ (runLast (F := F) c i a0 h0 a1 h1 a2 h2 a3 h3 a4 h4 a5 h5 a6 h6 sM hM sD hD hF1 hL0 x0 x1 x2 x3 x4 x5 xM xD).1, y ∈ pc.1.set :=
  View.cover_of_tiledL (runLast (F := F) c i a0 h0 a1 h1 a2 h2 a3 h3 a4 h4 a5 h5 a6 h6 sM hM sD hD hF1 hL0 x0 x1 x2 x3 x4 x5 xM xD).1 S1x4096x128.size (by sl_kernel_rfl) y
theorem coverM_last (y : S4096x128.Idx) : ∃ pc ∈ (runLast (F := F) c i a0 h0 a1 h1 a2 h2 a3 h3 a4 h4 a5 h5 a6 h6 sM hM sD hD hF1 hL0 x0 x1 x2 x3 x4 x5 xM xD).2.1, y ∈ pc.1.set :=
  View.cover_of_tiledL (runLast (F := F) c i a0 h0 a1 h1 a2 h2 a3 h3 a4 h4 a5 h5 a6 h6 sM hM sD hD hF1 hL0 x0 x1 x2 x3 x4 x5 xM xD).2.1 S4096x128.size (by sl_kernel_rfl) y
theorem coverD_last (y : S4096x1.Idx) : ∃ pc ∈ (runLast (F := F) c i a0 h0 a1 h1 a2 h2 a3 h3 a4 h4 a5 h5 a6 h6 sM hM sD hD hF1 hL0 x0 x1 x2 x3 x4 x5 xM xD).2.2.1, y ∈ pc.1.set :=
  View.cover_of_tiledL (runLast (F := F) c i a0 h0 a1 h1 a2 h2 a3 h3 a4 h4 a5 h5 a6 h6 sM hM sD hD hF1 hL0 x0 x1 x2 x3 x4 x5 xM xD).2.2.1 S4096x1.size (by sl_kernel_rfl) y

/-- What the first tile's body leaves in the neighbour-sum accumulator and in the in-degree accumulator; -/
def mFirst : Vec F S4096x128 .f32 := VM.read (Elt F) (VM.writes (Elt F) VM.junk (runFirst (F := F) c i a0 h0 a1 h1 a2 h2 a3 h3 a4 h4 a5 h5 a6 h6 sM hM sD hD hF0 hL1 x0 x1).1)
def dFirst : Vec F S4096x1 .f32 := VD.read (Elt F) (VD.writes (Elt F) VD.junk (runFirst (F := F) c i a0 h0 a1 h1 a2 h2 a3 h3 a4 h4 a5 h5 a6 h6 sM hM sD hD hF0 hL1 x0 x1).2.1)
/-- a middle tile's, over what the tile before left; -/
def mMid : Vec F S4096x128 .f32 := VM.read (Elt F) (VM.writes (Elt F) VM.junk (runMid (F := F) c i a0 h0 a1 h1 a2 h2 a3 h3 a4 h4 a5 h5 a6 h6 sM hM sD hD hF1 hL1 x0 x1 xM xD).1)
def dMid : Vec F S4096x1 .f32 := VD.read (Elt F) (VD.writes (Elt F) VD.junk (runMid (F := F) c i a0 h0 a1 h1 a2 h2 a3 h3 a4 h4 a5 h5 a6 h6 sM hM sD hD hF1 hL1 x0 x1 xM xD).2.1)
/-- the last tile's, and what it leaves in the result's staging buffer. -/
def oLast : Vec F S1x4096x128 .f32 := VOut.read (Elt F) (VOut.writes (Elt F) VOut.junk (runLast (F := F) c i a0 h0 a1 h1 a2 h2 a3 h3 a4 h4 a5 h5 a6 h6 sM hM sD hD hF1 hL0 x0 x1 x2 x3 x4 x5 xM xD).1)
def mLast : Vec F S4096x128 .f32 := VM.read (Elt F) (VM.writes (Elt F) VM.junk (runLast (F := F) c i a0 h0 a1 h1 a2 h2 a3 h3 a4 h4 a5 h5 a6 h6 sM hM sD hD hF1 hL0 x0 x1 x2 x3 x4 x5 xM xD).2.1)
def dLast : Vec F S4096x1 .f32 := VD.read (Elt F) (VD.writes (Elt F) VD.junk (runLast (F := F) c i a0 h0 a1 h1 a2 h2 a3 h3 a4 h4 a5 h5 a6 h6 sM hM sD hD hF1 hL0 x0 x1 x2 x3 x4 x5 xM xD).2.2.1)

end Cases

/-! ## The accumulators and the result's buffer, point by point -/

theorem first_of {t : Fin cfg0.N} (h : t.val % 16 = 0) : atFirst (grid0.coords t) := (atFirst_iff t).mpr h
theorem not_first_of {t : Fin cfg0.N} (h : ¬t.val % 16 = 0) : ¬atFirst (grid0.coords t) := fun h' => h ((atFirst_iff t).mp h')
theorem last_of {t : Fin cfg0.N} (h : t.val % 16 = 15) : atLast (grid0.coords t) := (atLast_iff t).mpr h
theorem not_last_of {t : Fin cfg0.N} (h : ¬t.val % 16 = 15) : ¬atLast (grid0.coords t) := fun h' => h ((atLast_iff t).mp h')
theorem not_last_of_first {t : Fin cfg0.N} (h : t.val % 16 = 0) : ¬atLast (grid0.coords t) := not_last_of (by omega)

/-- The two accumulators after the body at grid point `n`. -/
def accAt (c : Dev nD) : (n : ℕ) → n < cfg0.N → Vec F S4096x128 .f32 × Vec F S4096x1 .f32
  | 0, hn =>
    let t : Fin cfg0.N := ⟨0, hn⟩
    (mFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (first_of (t := t) (Nat.zero_mod _)) (not_last_of_first (t := t) (Nat.zero_mod _)) (iblk m c 0 t) (iblk m c 1 t),
     dFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (first_of (t := t) (Nat.zero_mod _)) (not_last_of_first (t := t) (Nat.zero_mod _)) (iblk m c 0 t) (iblk m c 1 t))
  | n + 1, hn =>
    let t : Fin cfg0.N := ⟨n + 1, hn⟩
    if h0 : (n + 1) % 16 = 0 then
      (mFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (first_of (t := t) h0) (not_last_of_first (t := t) h0) (iblk m c 0 t) (iblk m c 1 t),
       dFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (first_of (t := t) h0) (not_last_of_first (t := t) h0) (iblk m c 0 t) (iblk m c 1 t))
    else if h1 : (n + 1) % 16 = 15 then
      (mLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of (t := t) h0) (last_of (t := t) h1) (iblk m c 0 t) (iblk m c 1 t) (iblk m c 2 t) (iblk m c 3 t) (iblk m c 4 t) (iblk m c 5 t)
          (accAt c n (Nat.lt_of_succ_lt hn)).1 (accAt c n (Nat.lt_of_succ_lt hn)).2,
       dLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of (t := t) h0) (last_of (t := t) h1) (iblk m c 0 t) (iblk m c 1 t) (iblk m c 2 t) (iblk m c 3 t) (iblk m c 4 t) (iblk m c 5 t)
          (accAt c n (Nat.lt_of_succ_lt hn)).1 (accAt c n (Nat.lt_of_succ_lt hn)).2)
    else
      (mMid c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of (t := t) h0) (not_last_of (t := t) h1) (iblk m c 0 t) (iblk m c 1 t)
          (accAt c n (Nat.lt_of_succ_lt hn)).1 (accAt c n (Nat.lt_of_succ_lt hn)).2,
       dMid c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of (t := t) h0) (not_last_of (t := t) h1) (iblk m c 0 t) (iblk m c 1 t)
          (accAt c n (Nat.lt_of_succ_lt hn)).1 (accAt c n (Nat.lt_of_succ_lt hn)).2)

theorem pred_lt (t : Fin cfg0.N) : t.val - 1 < cfg0.N := Nat.lt_of_le_of_lt (Nat.sub_le _ _) t.isLt

/-- `accAt` at a batch's first tile; -/
theorem accAt_first (c : Dev nD) (t : Fin cfg0.N) (h0 : t.val % 16 = 0) :
    accAt m c t.val t.isLt =
      (mFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (first_of h0) (not_last_of_first h0) (iblk m c 0 t) (iblk m c 1 t),
       dFirst c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (first_of h0) (not_last_of_first h0) (iblk m c 0 t) (iblk m c 1 t)) := by
  obtain ⟨n, hn⟩ := t
  cases n with
  | zero => exact rfl
  | succ n => exact (dif_pos h0).trans rfl

/-- at a middle tile; -/
theorem accAt_mid (c : Dev nD) (t : Fin cfg0.N) (h0 : ¬t.val % 16 = 0) (h1 : ¬t.val % 16 = 15) :
    accAt m c t.val t.isLt =
      (mMid c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of h0) (not_last_of h1) (iblk m c 0 t) (iblk m c 1 t)
          (accAt m c (t.val - 1) (pred_lt t)).1 (accAt m c (t.val - 1) (pred_lt t)).2,
       dMid c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of h0) (not_last_of h1) (iblk m c 0 t) (iblk m c 1 t)
          (accAt m c (t.val - 1) (pred_lt t)).1 (accAt m c (t.val - 1) (pred_lt t)).2) := by
  obtain ⟨n, hn⟩ := t
  cases n with
  | zero => exact absurd (Nat.zero_mod _) h0
  | succ n => exact (dif_neg h0).trans ((dif_neg h1).trans rfl)

/-- at a batch's last tile. -/
theorem accAt_last (c : Dev nD) (t : Fin cfg0.N) (h0 : ¬t.val % 16 = 0) (h1 : t.val % 16 = 15) :
    accAt m c t.val t.isLt =
      (mLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of h0) (last_of h1) (iblk m c 0 t) (iblk m c 1 t) (iblk m c 2 t) (iblk m c 3 t) (iblk m c 4 t) (iblk m c 5 t)
          (accAt m c (t.val - 1) (pred_lt t)).1 (accAt m c (t.val - 1) (pred_lt t)).2,
       dLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of h0) (last_of h1) (iblk m c 0 t) (iblk m c 1 t) (iblk m c 2 t) (iblk m c 3 t) (iblk m c 4 t) (iblk m c 5 t)
          (accAt m c (t.val - 1) (pred_lt t)).1 (accAt m c (t.val - 1) (pred_lt t)).2) := by
  obtain ⟨n, hn⟩ := t
  cases n with
  | zero => exact absurd (Nat.zero_mod _) h0
  | succ n => exact (dif_neg h0).trans ((dif_pos h1).trans rfl)

/-- The result's staging buffer after the body at grid point `t`: at a batch's last tile the rows that tile stores;
    elsewhere the body stores nothing there, and nothing consults this value. -/
def outAt (c : Dev nD) (t : Fin cfg0.N) : Vec F S1x4096x128 .f32 :=
  if h1 : t.val % 16 = 15 then
    oLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of (t := t) (by omega)) (last_of h1) (iblk m c 0 t) (iblk m c 1 t) (iblk m c 2 t) (iblk m c 3 t) (iblk m c 4 t) (iblk m c 5 t)
      (accAt m c (t.val - 1) (pred_lt t)).1 (accAt m c (t.val - 1) (pred_lt t)).2
  else VOut.read (Elt F) VOut.junk

theorem outAt_last (c : Dev nD) (t : Fin cfg0.N) (h0 : ¬t.val % 16 = 0) (h1 : t.val % 16 = 15) :
    outAt m c t = oLast c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of h0) (last_of h1) (iblk m c 0 t) (iblk m c 1 t) (iblk m c 2 t) (iblk m c 3 t) (iblk m c 4 t) (iblk m c 5 t)
      (accAt m c (t.val - 1) (pred_lt t)).1 (accAt m c (t.val - 1) (pred_lt t)).2 :=
  (dif_pos h1).trans rfl

/-! ## The region's invariant -/

/-- Before grid point `n`: the accumulators at anything before the first point, then at what the point before left. -/
def PhiS (c : Dev nD) : (n : ℕ) → n ≤ cfg0.N → sProp 𝕄
  | 0, _ => iprop((∃ d, owns (c : Thread nD τ) accM fullShare d) ∗ (∃ d, owns (c : Thread nD τ) accD fullShare d))
  | n + 1, hn => iprop(owns (c : Thread nD τ) accM fullShare (accAt m c n hn).1 ∗ owns (c : Thread nD τ) accD fullShare (accAt m c n hn).2)

theorem PhiS_zero (c : Dev nD) (n : ℕ) (h : n ≤ cfg0.N) (hz : n = 0) :
    PhiS m c n h = iprop((∃ d, owns (c : Thread nD τ) accM fullShare d) ∗ (∃ d, owns (c : Thread nD τ) accD fullShare d)) := by
  subst hz; rfl
theorem PhiS_succ (c : Dev nD) (n : ℕ) (hn : n < cfg0.N) :
    PhiS m c (n + 1) hn = iprop(owns (c : Thread nD τ) accM fullShare (accAt m c n hn).1 ∗ owns (c : Thread nD τ) accD fullShare (accAt m c n hn).2) := rfl
theorem PhiS_pos (c : Dev nD) (n : ℕ) (h : n ≤ cfg0.N) (hz : n ≠ 0) :
    PhiS m c n h = iprop(owns (c : Thread nD τ) accM fullShare (accAt m c (n - 1) (by omega)).1 ∗ owns (c : Thread nD τ) accD fullShare (accAt m c (n - 1) (by omega)).2) := by
  cases n with
  | zero => exact absurd rfl hz
  | succ n => rfl

/-! ## The proof data -/

/-- On core `c`: the arrays as the region finds them; after the body each input's buffer at its block and the
    result's at `outAt`; the invariant `PhiS`; nothing owed; the array read by both the sender and the receiver
    window held by each at one half share, every other input array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

/-- Each input's current staging buffer holds its block at every point. -/
theorem found_0 (c : Dev nD) (t : Fin cfg0.N) (d) : (dats m 0 c).before 0 t d = iblk m c 0 t := found_0_of m (dats m 0 c) (A_eq m c 0) (after_0 m c) t d
theorem found_1 (c : Dev nD) (t : Fin cfg0.N) (d) : (dats m 0 c).before 1 t d = iblk m c 1 t := found_1_of m (dats m 0 c) (A_eq m c 1) (after_1 m c) t d
theorem found_2 (c : Dev nD) (t : Fin cfg0.N) (d) : (dats m 0 c).before 2 t d = iblk m c 2 t := found_2_of m (dats m 0 c) (A_eq m c 2) (after_2 m c) t d
theorem found_3 (c : Dev nD) (t : Fin cfg0.N) (d) : (dats m 0 c).before 3 t d = iblk m c 3 t := found_3_of m (dats m 0 c) (A_eq m c 3) (after_3 m c) t d
theorem found_4 (c : Dev nD) (t : Fin cfg0.N) (d) : (dats m 0 c).before 4 t d = iblk m c 4 t := found_4_of m (dats m 0 c) (A_eq m c 4) (after_4 m c) t d
theorem found_5 (c : Dev nD) (t : Fin cfg0.N) (d) : (dats m 0 c).before 5 t d = iblk m c 5 t := found_5_of m (dats m 0 c) (A_eq m c 5) (after_5 m c) t d

/-- What the body hands back of an input window: its block, in place. -/
theorem leaves_0 (c : Dev nD) (t : Fin cfg0.N) : (dats m 0 c).leavesExact 0 t = owns (c : Thread nD τ) (ms0 t) fullShare (iblk m c 0 t) := by
  unfold Dat.leavesExact; rw [live_0 t, after_0]
theorem leaves_1 (c : Dev nD) (t : Fin cfg0.N) : (dats m 0 c).leavesExact 1 t = owns (c : Thread nD τ) (ms1 t) fullShare (iblk m c 1 t) := by
  unfold Dat.leavesExact; rw [live_1 t, after_1]
theorem leaves_2 (c : Dev nD) (t : Fin cfg0.N) : (dats m 0 c).leavesExact 2 t = owns (c : Thread nD τ) (ms2 t) fullShare (iblk m c 2 t) := by
  unfold Dat.leavesExact; rw [live_2 t, after_2]
theorem leaves_3 (c : Dev nD) (t : Fin cfg0.N) : (dats m 0 c).leavesExact 3 t = owns (c : Thread nD τ) (ms3 t) fullShare (iblk m c 3 t) := by
  unfold Dat.leavesExact; rw [live_3 t, after_3]
theorem leaves_4 (c : Dev nD) (t : Fin cfg0.N) : (dats m 0 c).leavesExact 4 t = owns (c : Thread nD τ) (ms4 t) fullShare (iblk m c 4 t) := by
  unfold Dat.leavesExact; rw [live_4 t, after_4]
theorem leaves_5 (c : Dev nD) (t : Fin cfg0.N) : (dats m 0 c).leavesExact 5 t = owns (c : Thread nD τ) (ms5 t) fullShare (iblk m c 5 t) := by
  unfold Dat.leavesExact; rw [live_5 t, after_5]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4800000 in
/-- The body at any point. The closed forms say which case the point is in; the inputs' buffers hold their blocks; the
    invariant hands over the accumulators at what the point before left (at anything before the first point, which
    is a batch's first tile) and takes them back at this point's contents; the result's buffer is handed back
    untouched unless this is a batch's last tile, where it takes the rows stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2, found_3, found_4, found_5]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5]
  have hN : t.val < 128 := lt_of_lt_of_eq t.isLt (show cfg0.N = 128 from N_0)
  by_cases h0 : t.val % 16 = 0
  · have h1 : ¬t.val % 16 = 15 := by omega
    rw [Dat.leavesExact_idle (dats m 0 c) 6 t (idle_out t (not_last_of h1)) (noFlush_out t (not_last_of h1))]
    rw [accAt_first m c t h0]
    unfold mFirst dFirst; (try dsimp only)
    have hrun := (runFirst (F := F) c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (first_of h0) (not_last_of_first h0) (iblk m c 0 t) (iblk m c 1 t)).2.2 Set.univ
    by_cases hz : t.val = 0
    · rw [PhiS_castSucc m c t, PhiS_zero m c _ _ hz]
      iintro ⟨⟨HM, HD⟩, Ho, ⟨%d0, H0⟩, ⟨%d1, H1⟩, ⟨%d2, H2⟩, ⟨%d3, H3⟩, ⟨%d4, H4⟩, ⟨%d5, H5⟩, ⟨%d6, H6⟩⟩
      iapply (hrun _)
      isplitl [H0]; · iexact H0
      isplitl [H1]; · iexact H1
      isplitl [HM]; · iexact HM
      isplitl [HD]; · iexact HD
      iintro ⟨H0, H1, ⟨%eM, HM⟩, ⟨%eD, HD⟩⟩
      isplitl [HM HD]
      · isplitl [HM]
        · unfold owns; iexists _; isplitr
          swap; · iexact HM
          ipureintro; exact View.read_writes_of_cover _ _ _ _ _ (coverM_first _ _ _ _ _ _ _ _ _ _ _ _ _ _ _ _ _ _ _ _ _ _ _ _)
        · unfold owns; iexists _; isplitr
          swap; · iexact HD
          ipureintro; exact View.read_writes_of_cover _ _ _ _ _ (coverD_first _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨HM, HD⟩, Ho, ⟨%d0, H0⟩, ⟨%d1, H1⟩, ⟨%d2, H2⟩, ⟨%d3, H3⟩, ⟨%d4, H4⟩, ⟨%d5, H5⟩, ⟨%d6, H6⟩⟩
      iapply (hrun _)
      isplitl [H0]; · iexact H0
      isplitl [H1]; · iexact H1
      isplitl [HM]; · iexists _; iexact HM
      isplitl [HD]; · iexists _; iexact HD
      iintro ⟨H0, H1, ⟨%eM, HM⟩, ⟨%eD, HD⟩⟩
      isplitl [HM HD]
      · isplitl [HM]
        · unfold owns; iexists _; isplitr
          swap; · iexact HM
          ipureintro; exact View.read_writes_of_cover _ _ _ _ _ (coverM_first _ _ _ _ _ _ _ _ _ _ _ _ _ _ _ _ _ _ _ _ _ _ _ _)
        · unfold owns; iexists _; isplitr
          swap; · iexact HD
          ipureintro; exact View.read_writes_of_cover _ _ _ _ _ (coverD_first _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    by_cases h1 : t.val % 16 = 15
    · rw [show (dats m 0 c).leavesExact 6 t = owns (c : Thread nD τ) (ms6 t) fullShare ((dats m 0 c).after 6 t) from by
        unfold Dat.leavesExact; rw [live_out t (last_of h1)], after_6]
      rw [accAt_last m c t h0 h1, outAt_last m c t h0 h1]
      unfold oLast mLast dLast; (try dsimp only)
      rw [PhiS_castSucc m c t, PhiS_pos m c _ _ hz]
      iintro ⟨⟨HM, HD⟩, Ho, ⟨%d0, H0⟩, ⟨%d1, H1⟩, ⟨%d2, H2⟩, ⟨%d3, H3⟩, ⟨%d4, H4⟩, ⟨%d5, H5⟩, ⟨%d6, H6⟩⟩
      iapply ((runLast (F := F) c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of h0) (last_of h1) (iblk m c 0 t) (iblk m c 1 t) (iblk m c 2 t) (iblk m c 3 t) (iblk m c 4 t) (iblk m c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HM]; · iexact HM
      isplitl [HD]; · iexact HD
      iintro ⟨H0, H1, H2, H3, H4, H5, ⟨%e6, H6⟩, ⟨%eM, HM⟩, ⟨%eD, HD⟩⟩
      isplitl [HM HD]
      · isplitl [HM]
        · unfold owns; iexists _; isplitr
          swap; · iexact HM
          ipureintro; exact View.read_writes_of_cover _ _ _ _ _ (coverM_last _ _ _ _ _ _ _ _ _ _ _ _ _ _ _ _ _ _ _ _ _ _ _ _ _ _ _ _ _ _)
        · unfold owns; iexists _; isplitr
          swap; · iexact HD
          ipureintro; exact View.read_writes_of_cover _ _ _ _ _ (coverD_last _ _ _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverO_last _ _ _ _ _ _ _ _ _ _ _ _ _ _ _ _ _ _ _ _ _ _ _ _ _ _ _ _ _ _)
    · rw [Dat.leavesExact_idle (dats m 0 c) 6 t (idle_out t (not_last_of h1)) (noFlush_out t (not_last_of h1))]
      rw [accAt_mid m c t h0 h1]
      unfold mMid dMid; (try dsimp only)
      rw [PhiS_castSucc m c t, PhiS_pos m c _ _ hz]
      iintro ⟨⟨HM, HD⟩, Ho, ⟨%d0, H0⟩, ⟨%d1, H1⟩, ⟨%d2, H2⟩, ⟨%d3, H3⟩, ⟨%d4, H4⟩, ⟨%d5, H5⟩, ⟨%d6, H6⟩⟩
      iapply ((runMid (F := F) c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of h0) (not_last_of h1) (iblk m c 0 t) (iblk m c 1 t) _ _).2.2 Set.univ _)
      isplitl [H0]; · iexact H0
      isplitl [H1]; · iexact H1
      isplitl [HM]; · iexact HM
      isplitl [HD]; · iexact HD
      iintro ⟨H0, H1, ⟨%eM, HM⟩, ⟨%eD, HD⟩⟩
      isplitl [HM HD]
      · isplitl [HM]
        · unfold owns; iexists _; isplitr
          swap; · iexact HM
          ipureintro; exact View.read_writes_of_cover _ _ _ _ _ (coverM_mid _ _ _ _ _ _ _ _ _ _ _ _ _ _ _ _ _ _ _ _ _ _ _ _ _ _)
        · unfold owns; iexists _; isplitr
          swap; · iexact HD
          ipureintro; exact View.read_writes_of_cover _ _ _ _ _ (coverD_mid _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Mpnn

end
-- ==== Proof.KI.Launch.lean ====
/-
  The launch of the message-passing pipeline and what it leaves in memory, for any float type.
  The sender window and the receiver window read one array, so the array's full share is dealt to them as its two
  halves when the region is entered, and is whole again when it is left; every other array goes to its one window
  whole. The bias vector itself is no window's array (the region reads its reshaped copy): it bypasses the region.
  The launch itself is the general lemma for windows that share an array.
  `run_main`: every weakly fair execution of @main terminates, each window's array ending at the contents the
  pipeline's write-backs leave (an input array: its entry contents), the bias vector at its entry contents.
  `frame`: in particular the five argument arrays end as launched.
-/
import proofs.«118113_j2903397893033_1_alg».proof.Proof.KI.Body
import proofs.«118113_j2903397893033_1_alg».proof.Proof.LibSharedFrame

set_option maxRecDepth 16384

noncomputable section

namespace Cert.KernelIdeal.Mpnn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays dealt to the windows -/

/-- A window's array is a whole buffer: holding it is holding the buffer behind it. -/
theorem arr_pt (c : Dev nD) (w : Fin cfg0.W) (q : PosShare TreeShare) (f : Buf (Elt F) ((cfg0.win w).arr.view.loc (c : Thread nD τ))) :
    ((cfg0.win w).arr.view.loc (c : Thread nD τ) ↦[(cfg0.win w).arr.view.set]{q} f : sProp 𝕄)
      = (((c : Thread nD τ).loc (Pipeline.arrRef spec0 w)) ↦{q} f) := by
  rw [(arr_whole0 w).set_eq_univ]

/-- The distinct buffers behind the seven windows, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0)
          ∗ (((c : Thread nD τ).loc main_arg2) ↦{fullShare} W main_arg2) ∗ (((c : Thread nD τ).loc main_arg3) ↦{fullShare} W main_arg3)
          ∗ (((c : Thread nD τ).loc main_v0) ↦{fullShare} W main_v0) ∗ (((c : Thread nD τ).loc main_v1) ↦{fullShare} W main_v1)) :=
  bigSep_eq_bigSepL_of_eq [main_arg1, main_arg0, main_arg2, main_arg3, main_v0, main_v1] (by decide) (by decide) _

/-- The share each window holds its array at: the sender and the receiver window the two halves of the node-feature
    array's, every other window its array's whole. -/
theorem share_0 (c : Dev nD) : (dats m 0 c).share 0 = fullShare := by
  unfold Dat.share; rw [if_neg (show ¬((cfg0.win 0).isOut = true) from by decide)]; dsimp only [dats]
theorem share_1 (c : Dev nD) : (dats m 0 c).share 1 = fullShare.left := by
  unfold Dat.share; rw [if_neg (show ¬((cfg0.win 1).isOut = true) from by decide)]; dsimp only [dats]
theorem share_2 (c : Dev nD) : (dats m 0 c).share 2 = fullShare.right := by
  unfold Dat.share; rw [if_neg (show ¬((cfg0.win 2).isOut = true) from by decide)]; dsimp only [dats]
theorem share_3 (c : Dev nD) : (dats m 0 c).share 3 = fullShare := by
  unfold Dat.share; rw [if_neg (show ¬((cfg0.win 3).isOut = true) from by decide)]; dsimp only [dats]
theorem share_4 (c : Dev nD) : (dats m 0 c).share 4 = fullShare := by
  unfold Dat.share; rw [if_neg (show ¬((cfg0.win 4).isOut = true) from by decide)]; dsimp only [dats]
theorem share_5 (c : Dev nD) : (dats m 0 c).share 5 = fullShare := by
  unfold Dat.share; rw [if_neg (show ¬((cfg0.win 5).isOut = true) from by decide)]; dsimp only [dats]
theorem share_6 (c : Dev nD) : (dats m 0 c).share 6 = fullShare := by
  unfold Dat.share; rw [if_pos (show (cfg0.win 6).isOut = true from by decide)]

/-- Before any write-back an array holds what the region found in it. -/
theorem arrAt_zero (c : Dev nD) (w : Fin cfg0.W) : (dats m 0 c).arrAt w 0 = V m c (Pipeline.arrRef spec0 w) := A_eq m c w

/-- The windows' arrays as the proof data hold them, one by one. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_arg1) ↦{fullShare} G 0) ∗ (((c : Thread nD τ).loc main_arg0) ↦{fullShare.left} G 1)
          ∗ (((c : Thread nD τ).loc main_arg0) ↦{fullShare.right} G 2) ∗ (((c : Thread nD τ).loc main_arg2) ↦{fullShare} G 3)
          ∗ (((c : Thread nD τ).loc main_arg3) ↦{fullShare} G 4) ∗ (((c : Thread nD τ).loc main_v0) ↦{fullShare} G 5)
          ∗ (((c : Thread nD τ).loc main_v1) ↦{fullShare} G 6)) := by
  unfold Dat.arrays
  rw [bigSep_W0]
  simp only [share_0, share_1, share_2, share_3, share_4, share_5, share_6, View.set_whole]

/-- The six buffers behind the seven windows, each whole, are the windows' arrays as the proof data hold them at the
    region's entry: the node-feature array split into its two half shares for the sender and the receiver window. -/
theorem arrays_in (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  simp only [arrAt_zero]
  iintro ⟨Hadj, Hx, Hwm, Hwu, Hb, Ho⟩
  ihave Hx' := (pointsTo_share (PosShare.mem_left_op_right fullShare)).1 $$ Hx
  icases Hx' with ⟨Hxl, Hxr⟩
  isplitl [Hadj]; · iexact Hadj
  isplitl [Hxl]; · iexact Hxl
  isplitl [Hxr]; · iexact Hxr
  isplitl [Hwm]; · iexact Hwm
  isplitl [Hwu]; · iexact Hwu
  isplitl [Hb]; · iexact Hb
  iexact Ho

/-! ## The run -/

set_option backward.isDefEq.respectTransparency.types false in
/-- The frame run for windows that share an array (the general lemma), at this pipeline: its layout facts, the body
    obligation, @main up to the region, the arrays dealt to the windows, and the two accumulators taken into the
    invariant at anything before the first point and handed back at anything after the last. -/
theorem run_main : θ_run defs (onTc (τ := τ) (main (F := F))) (s₀ m ρ) (Pipeline.FramePost cfgs (dats m) 0 (V m)) :=
  Cert.LibSharedFrame.θ_run_frame_track_shared cfgs (dats m) (0 : Fin 1) cellOf_inj winFacts₀0 block_pos0 arr_whole0 stage_whole0
    defs₀ Variants.none m ρ main
    (hbody := fun c => (body_obligation m c).loose) (howed := fun _ _ => rfl)
    (V := V m) (hmain := hmain m Variants.none) (hsplit := arrays_in m)
    (hin := fun c => by
      rw [show (dats m 0 c).Φ 0 = PhiS m c 0 (Nat.zero_le _) from rfl, PhiS_zero m c 0 _ rfl, scratch_eq])
    (hout := fun c => by
      rw [show (dats m 0 c).Φ (Fin.last cfg0.N) = PhiS m c (Fin.last cfg0.N).val (Nat.le_of_lt_succ (Fin.last cfg0.N).isLt) from rfl,
        PhiS_pos m c _ _ (by rw [Fin.val_last]; have : cfg0.N = 128 := N_0; omega), scratch_eq]
      iintro ⟨HM, HD⟩
      isplitl [HM]
      · iexists _; iexact HM
      · iexists _; iexact HD)

/-- info: 'Cert.KernelIdeal.Mpnn.run_main' depends on axioms: [propext, Classical.choice, Quot.sound] -/
#guard_msgs in #print axioms run_main

/-! ## The frame -/

/-- Every argument array ends as launched: four of them are input windows' arrays, which the pipeline never writes
    and no host operation wrote before the region; the bias vector bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 1).trans (((dats m 0 c).arrAt_in 1 rfl _).trans ((A_eq m c 1).trans (V_main_arg0 m c))),
     ((h c).1 0).trans (((dats m 0 c).arrAt_in 0 rfl _).trans ((A_eq m c 0).trans (V_main_arg1 m c))),
     ((h c).1 3).trans (((dats m 0 c).arrAt_in 3 rfl _).trans ((A_eq m c 3).trans (V_main_arg2 m c))),
     ((h c).1 4).trans (((dats m 0 c).arrAt_in 4 rfl _).trans ((A_eq m c 4).trans (V_main_arg3 m c))),
     ((h c).2 main_arg4 (Pipeline.mem_restRefs_of main_arg4 (by decide) (by decide))).trans (V_main_arg4 m c)⟩) (run_main m ρ)

end Cert.KernelIdeal.Mpnn

end
-- ==== Proof.KI.Pieces.lean ====
/-
  What the pieces a tile's body wrote read back as: each buffer a case stores into ends at the body's own arithmetic
  of what it loaded — the neighbour-sum accumulator at its old contents (zero at a batch's first tile) plus this
  tile's contraction, the in-degree accumulator likewise, and at a batch's last tile the result rows computed from
  the completed accumulators. For any float type.
-/
import proofs.«118113_j2903397893033_1_alg».proof.Proof.KI.Body
import Idealize.ShloMosaic.Lib.Pipeline.Value

set_option maxRecDepth 16384

noncomputable section

namespace Cert.KernelIdeal.Mpnn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Cases
variable (c : Dev nD) (i : grid0.Coords)
  (a0 : Memref sig .tc .vmem S1x256x4096 .i32) (h0 : a0.IsWhole)
  (a1 : Memref sig .tc .vmem S1x256x128 .f32) (h1 : a1.IsWhole)
  (a2 : Memref sig .tc .vmem S1x4096x128 .f32) (h2 : a2.IsWhole)
  (a3 : Memref sig .tc .vmem S128x128 .f32) (h3 : a3.IsWhole)
  (a4 : Memref sig .tc .vmem S128x128 .f32) (h4 : a4.IsWhole)
  (a5 : Memref sig .tc .vmem S1x128 .f32) (h5 : a5.IsWhole)
  (a6 : Memref sig .tc .vmem S1x4096x128 .f32) (h6 : a6.IsWhole)
  (sM : Memref sig .tc .vmem S4096x128 .f32) (hM : sM.IsWhole)
  (sD : Memref sig .tc .vmem S4096x1 .f32) (hD : sD.IsWhole)

variable (hF0 : atFirst i) (hF1 : ¬atFirst i) (hL0 : atLast i) (hL1 : ¬atLast i)
  (x0 : Vec F S1x256x4096 .i32) (x1 : Vec F S1x256x128 .f32) (x2 : Vec F S1x4096x128 .f32) (x3 x4 : Vec F S128x128 .f32)
  (x5 : Vec F S1x128 .f32) (xM : Vec F S4096x128 .f32) (xD : Vec F S4096x1 .f32)

/-- The zero offsets of a rank-2 and of a rank-3 rectangle, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- First tile, neighbour sums: the zero fill is stored whole, read back whole, and the update stored whole over it;
    the later store covers, so the buffer reads its payload, whose accumulator operand is the zero fill. -/
theorem mFirst_eq : mFirst (F := F) c i a0 h0 a1 h1 a2 h2 a3 h3 a4 h4 a5 h5 a6 h6 sM hM sD hD hF0 hL1 x0 x1 = k0_pay4 x0 x1 (k0_pay1 (F := F)) := by
  unfold mFirst
  rw [View.read_writes_eq_canon _ _ _ (coverM_first c i a0 h0 a1 h1 a2 h2 a3 h3 a4 h4 a5 h5 a6 h6 sM hM sD hD hF0 hL1 x0 x1)]
  unfold runFirst
  dsimp only
  sl_unfold_words
  rw [View.canon_cons_unit_zero (S := S4096x128) hz2, View.readCov_unit_zero (S := S4096x128) _ hz2]
  simp only [View.readAt_eq_ld, h0.read_unread, h1.read_unread, View.ld_unit_zero (S := S1x256x4096) hz3,
    View.ld_unit_zero (S := S1x256x128) hz3]
/-- First tile, in-degrees: likewise over the zero column. -/
theorem dFirst_eq : dFirst (F := F) c i a0 h0 a1 h1 a2 h2 a3 h3 a4 h4 a5 h5 a6 h6 sM hM sD hD hF0 hL1 x0 x1 = k0_pay5 x0 (k0_pay2 (F := F)) := by
  unfold dFirst
  rw [View.read_writes_eq_canon _ _ _ (coverD_first c i a0 h0 a1 h1 a2 h2 a3 h3 a4 h4 a5 h5 a6 h6 sM hM sD hD hF0 hL1 x0 x1)]
  unfold runFirst
  dsimp only
  sl_unfold_words
  rw [View.canon_cons_unit_zero (S := S4096x1) hz2, View.readCov_unit_zero (S := S4096x1) _ hz2]
  simp only [View.readAt_eq_ld, h0.read_unread, View.ld_unit_zero (S := S1x256x4096) hz3]
/-- Middle tile: one whole store per accumulator; its payload's loads read the whole buffers at their contents. -/
theorem mMid_eq : mMid (F := F) c i a0 h0 a1 h1 a2 h2 a3 h3 a4 h4 a5 h5 a6 h6 sM hM sD hD hF1 hL1 x0 x1 xM xD = k0_pay4 x0 x1 xM := by
  unfold mMid
  rw [View.read_writes_eq_canon _ _ _ (coverM_mid c i a0 h0 a1 h1 a2 h2 a3 h3 a4 h4 a5 h5 a6 h6 sM hM sD hD hF1 hL1 x0 x1 xM xD)]
  unfold runMid
  dsimp only
  sl_unfold_words
  rw [View.canon_unit_zero (S := S4096x128) hz2]
  simp only [View.readAt_eq_ld, h0.read_unread, h1.read_unread, hM.read_unread, View.ld_unit_zero (S := S1x256x4096) hz3,
    View.ld_unit_zero (S := S1x256x128) hz3, View.ld_unit_zero (S := S4096x128) hz2]
theorem dMid_eq : dMid (F := F) c i a0 h0 a1 h1 a2 h2 a3 h3 a4 h4 a5 h5 a6 h6 sM hM sD hD hF1 hL1 x0 x1 xM xD = k0_pay5 x0 xD := by
  unfold dMid
  rw [View.read_writes_eq_canon _ _ _ (coverD_mid c i a0 h0 a1 h1 a2 h2 a3 h3 a4 h4 a5 h5 a6 h6 sM hM sD hD hF1 hL1 x0 x1 xM xD)]
  unfold runMid
  dsimp only
  sl_unfold_words
  rw [View.canon_unit_zero (S := S4096x1) hz2]
  simp only [View.readAt_eq_ld, h0.read_unread, hD.read_unread, View.ld_unit_zero (S := S1x256x4096) hz3,
    View.ld_unit_zero (S := S4096x1) hz2]
/-- Last tile: the accumulators are updated exactly as at a middle tile; -/
theorem mLast_eq : mLast (F := F) c i a0 h0 a1 h1 a2 h2 a3 h3 a4 h4 a5 h5 a6 h6 sM hM sD hD hF1 hL0 x0 x1 x2 x3 x4 x5 xM xD = k0_pay4 x0 x1 xM := by
  unfold mLast
  rw [View.read_writes_eq_canon _ _ _ (coverM_last c i a0 h0 a1 h1 a2 h2 a3 h3 a4 h4 a5 h5 a6 h6 sM hM sD hD hF1 hL0 x0 x1 x2 x3 x4 x5 xM xD)]
  unfold runLast
  dsimp only
  sl_unfold_words
  rw [View.canon_unit_zero (S := S4096x128) hz2]
  simp only [View.readAt_eq_ld, h0.read_unread, h1.read_unread, hM.read_unread, View.ld_unit_zero (S := S1x256x4096) hz3,
    View.ld_unit_zero (S := S1x256x128) hz3, View.ld_unit_zero (S := S4096x128) hz2]
theorem dLast_eq : dLast (F := F) c i a0 h0 a1 h1 a2 h2 a3 h3 a4 h4 a5 h5 a6 h6 sM hM sD hD hF1 hL0 x0 x1 x2 x3 x4 x5 xM xD = k0_pay5 x0 xD := by
  unfold dLast
  rw [View.read_writes_eq_canon _ _ _ (coverD_last c i a0 h0 a1 h1 a2 h2 a3 h3 a4 h4 a5 h5 a6 h6 sM hM sD hD hF1 hL0 x0 x1 x2 x3 x4 x5 xM xD)]
  unfold runLast
  dsimp only
  sl_unfold_words
  rw [View.canon_unit_zero (S := S4096x1) hz2]
  simp only [View.readAt_eq_ld, h0.read_unread, hD.read_unread, View.ld_unit_zero (S := S1x256x4096) hz3,
    View.ld_unit_zero (S := S4096x1) hz2]
/-- and the result rows are the finishing arithmetic of the two accumulators read back after that update (each
    read-back is a whole load over one whole store, hence that store's payload), the two weight matrices, the
    receiver rows and the bias row. -/
theorem oLast_eq : oLast (F := F) c i a0 h0 a1 h1 a2 h2 a3 h3 a4 h4 a5 h5 a6 h6 sM hM sD hD hF1 hL0 x0 x1 x2 x3 x4 x5 xM xD
    = k0_pay6 (k0_pay4 x0 x1 xM) (k0_pay5 x0 xD) x3 x4 x2 x5 := by
  unfold oLast
  rw [View.read_writes_eq_canon _ _ _ (coverO_last c i a0 h0 a1 h1 a2 h2 a3 h3 a4 h4 a5 h5 a6 h6 sM hM sD hD hF1 hL0 x0 x1 x2 x3 x4 x5 xM xD)]
  unfold runLast
  dsimp only
  sl_unfold_words
  rw [View.canon_unit_zero (S := S1x4096x128) hz3]
  simp only [View.readAt_eq_ld, h0.read_unread, h1.read_unread, h2.read_unread, h3.read_unread, h4.read_unread, h5.read_unread,
    hM.read_unread, hD.read_unread,
    View.readCov_unit_zero (S := S4096x128) _ hz2, View.readCov_unit_zero (S := S4096x1) _ hz2,
    View.ld_unit_zero (S := S1x256x4096) hz3, View.ld_unit_zero (S := S1x256x128) hz3, View.ld_unit_zero (S := S1x4096x128) hz3,
    View.ld_unit_zero (S := S4096x128) hz2, View.ld_unit_zero (S := S4096x1) hz2, View.ld_unit_zero (S := S128x128) hz2,
    View.ld_unit_zero (S := S1x128) hz2]

end Cases

end Cert.KernelIdeal.Mpnn

end
-- ==== Proof.Spec.lean ====
/-
  Message passing over a dense adjacency, as one function of the five argument arrays on the extended reals.
  For batch b, an edge from sender i to receiver j is a non-zero word adj[b, i, j]. Receiver j's in-degree is the
  number of its senders, its neighbour sum in feature f the sum of x[b, i, f] over its senders i, its mean message
  the neighbour sum over the in-degree clamped at one (so a receiver with no sender gets the zero message). The
  result row is the receiver's own features times the update weights, plus the mean message times the message
  weights, plus the bias, clamped at zero.
  The two float literals the programs share (1.0 and 0.0) stay the words the programs write: both sides carry the
  same word and nothing here evaluates it.
-/
import Idealize.ShloMosaic.PureOps.Ideal
import Idealize.ShloMosaic.Lib.ValueIdx

noncomputable section

open scoped BigOperators

namespace Cert.MpnnSpec

open Idealize.ShloMosaic Idealize.ShloMosaic.ValueIdx

/-- Node features [8, 4096, 128], the adjacency words [8, 4096, 4096], a weight matrix [128, 128], the bias [128]. -/
abbrev Feat : Type := (⟨3, ![8, 4096, 128]⟩ : Shape).Idx → EReal
abbrev Adj : Type := (⟨3, ![8, 4096, 4096]⟩ : Shape).Idx → BitVec 32
abbrev Wt : Type := (⟨2, ![128, 128]⟩ : Shape).Idx → EReal
abbrev BiasV : Type := (⟨1, ![128]⟩ : Shape).Idx → EReal

/-- The indicator of a non-zero word: 1 or 0, as the conversion of the comparison's bit. -/
def ind (w : BitVec 32) : EReal := FloatOps.uitofp (F := Ideal) .f32 (IntOp.cmpi .ne w 0#32)

/-- Is there an edge from sender `i` to receiver `j` in batch `b`. -/
def edge (adj : Adj) (b : Fin 8) (i j : Fin 4096) : EReal := ind (adj (ix3 b i j))

/-- Receiver `j`'s in-degree. -/
def deg (adj : Adj) (b : Fin 8) (j : Fin 4096) : EReal := ∑ i : Fin 4096, edge adj b i j

/-- The sum of the senders' features into receiver `j`. -/
def nsum (x : Feat) (adj : Adj) (b : Fin 8) (j : Fin 4096) (f : Fin 128) : EReal :=
  ∑ i : Fin 4096, edge adj b i j * x (ix3 b i f)

/-- The mean message: the neighbour sum over the in-degree clamped at one. -/
def nmean (x : Feat) (adj : Adj) (b : Fin 8) (j : Fin 4096) (f : Fin 128) : EReal :=
  Ideal.div (nsum x adj b j f) (max (deg adj b j) (Ideal.ofBits .f32 0x3F800000#32))

/-- The layer's result at batch `b`, node `j`, unit `u`. -/
def outAt (x : Feat) (adj : Adj) (wm wu : Wt) (bias : BiasV) (b : Fin 8) (j : Fin 4096) (u : Fin 128) : EReal :=
  max ((∑ f : Fin 128, x (ix3 b j f) * wu (ix2 f u)) + (∑ f : Fin 128, nmean x adj b j f * wm (ix2 f u)) + bias (ix1 u))
    (Ideal.ofBits .f32 0x00000000#32)

/-- The whole result array. -/
def out (x : Feat) (adj : Adj) (wm wu : Wt) (bias : BiasV) : Feat := fun i => outAt x adj wm wu bias (i 0) (i 1) (i 2)

theorem out_apply (x : Feat) (adj : Adj) (wm wu : Wt) (bias : BiasV) (b : Fin 8) (j : Fin 4096) (u : Fin 128) :
    out x adj wm wu bias (ix3 b j u) = outAt x adj wm wu bias b j u := rfl

end Cert.MpnnSpec

end
-- ==== Proof.KI.Payload.lean ====
/-
  The kernel body's arithmetic read at one element, on the extended reals.
  One tile's contribution to receiver j's neighbour sum in feature f is the sum over the tile's 256 senders r of
  the edge indicator of adj[r, j] times the sender's feature x[r, f] (the mask's integer-to-float conversion of a
  0/1 word is the indicator, and a change of float format is the identity); its contribution to the in-degree is
  the sum of the indicators (the column of ones contributes the factor 1). The finish divides the neighbour sum
  by the in-degree clamped at one, multiplies by the message weights, adds the receiver's features times the
  update weights and the bias, and clamps at zero.
-/
import proofs.«118113_j2903397893033_1_alg».proof.Proof.Gen.KernelIdeal.Skeleton
import proofs.«118113_j2903397893033_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Mpnn

open Cert.KernelIdeal Cert.KernelIdeal.Gen Cert.MpnnSpec
open Idealize.ShloMosaic Idealize.ShloMosaic.ValueIdx

/-! ## The edge indicator -/

/-- A one-bit word widened to 32 bits and read as a signed integer is the bit read unsigned: the conversion of the
    widened comparison bit is the indicator. -/
private theorem sitofp_setWidth_bit (b : BitVec 1) :
    FloatOps.sitofp (F := Ideal) .f32 (b.setWidth 32) = FloatOps.uitofp (F := Ideal) .f32 b := by
  by_cases h : b = 1#1
  · subst h
    show (((BitVec.setWidth 32 (1#1 : BitVec 1)).toInt : ℝ) : EReal) = ((((1#1 : BitVec 1)).toNat : ℝ) : EReal)
    rw [show (BitVec.setWidth 32 (1#1 : BitVec 1)).toInt = 1 from by decide, show ((1#1 : BitVec 1)).toNat = 1 from by decide]
    simp
  · have h0 := eq_zero_of_ne_one h
    subst h0
    show (((BitVec.setWidth 32 (0#1 : BitVec 1)).toInt : ℝ) : EReal) = ((((0#1 : BitVec 1)).toNat : ℝ) : EReal)
    rw [show (BitVec.setWidth 32 (0#1 : BitVec 1)).toInt = 0 from by decide, show ((0#1 : BitVec 1)).toNat = 0 from by decide]
    simp

/-- The mask of the adjacency tile at sender r, receiver j: the indicator of the word. -/
private theorem pay3_apply (v3 : Vec Ideal S1x256x4096 .i32) (r : Fin 256) (j : Fin 4096) :
    k0_pay3 v3 (ix2 r j) = ind (v3 (ix3 (0 : Fin 1) r j)) := by
  unfold k0_pay3
  show FloatOps.sitofp (F := Ideal) .f32
      ((IntOp.cmpi .ne (shapeCast S256x4096 v3 shapeCasts_S1x256x4096_S256x4096 (ix2 r j)) 0#32).setWidth 32) = _
  rw [shapeCast_1ab_ab_apply]
  exact sitofp_setWidth_bit _

/-! ## The zero fills -/

/-- The zero fills. -/
theorem pay1_apply (j : Fin 4096) (f : Fin 128) : k0_pay1 (F := Ideal) (ix2 j f) = 0 := by
  unfold k0_pay1
  show shapeCast S4096x128 (broadcast S4096x128 (Scalar.ofBits (F := Ideal) .f32 0x00000000#32)) shapeCasts_S4096x128_S4096x128 (ix2 j f) = 0
  rw [shapeCast_self]
  exact Ideal.ofBits_zero_f32
theorem pay2_apply (j : Fin 4096) : k0_pay2 (F := Ideal) (ix2 j (0 : Fin 1)) = 0 := by
  unfold k0_pay2
  show shapeCast S4096x1 (broadcast S4096x1 (Scalar.ofBits (F := Ideal) .f32 0x00000000#32)) shapeCasts_S4096x1_S4096x1 (ix2 j (0 : Fin 1)) = 0
  rw [shapeCast_self]
  exact Ideal.ofBits_zero_f32

/-! ## The accumulating products: the senders' axis contracted on both operands -/

private theorem lhsA_0 (i : S4096x128.Idx) (q : dot_S256x4096_S256x128_S4096x128_0_0_1_1_n_n.contr.Idx) :
    (dot_S256x4096_S256x128_S4096x128_0_0_1_1_n_n.lhsIdx i q 0).val = (q ⟨0, by decide⟩).val :=
  dot_S256x4096_S256x128_S4096x128_0_0_1_1_n_n.lhsIdx_val_of_single rfl i q
private theorem lhsA_1 (i : S4096x128.Idx) (q : dot_S256x4096_S256x128_S4096x128_0_0_1_1_n_n.contr.Idx) :
    (dot_S256x4096_S256x128_S4096x128_0_0_1_1_n_n.lhsIdx i q 1).val = (i 0).val := by
  unfold DotDims.lhsIdx
  rw [dif_neg (show ¬(1 : Fin S256x4096.rank) ∈ dot_S256x4096_S256x128_S4096x128_0_0_1_1_n_n.lhsBatch by decide), dif_pos (show (1 : Fin S256x4096.rank) ∈ dot_S256x4096_S256x128_S4096x128_0_0_1_1_n_n.lhsNonContracting by decide)]
  rfl
private theorem rhsA_0 (i : S4096x128.Idx) (q : dot_S256x4096_S256x128_S4096x128_0_0_1_1_n_n.contr.Idx) :
    (dot_S256x4096_S256x128_S4096x128_0_0_1_1_n_n.rhsIdx i q 0).val = (q ⟨0, by decide⟩).val :=
  dot_S256x4096_S256x128_S4096x128_0_0_1_1_n_n.rhsIdx_val_of_single rfl i q
private theorem rhsA_1 (i : S4096x128.Idx) (q : dot_S256x4096_S256x128_S4096x128_0_0_1_1_n_n.contr.Idx) :
    (dot_S256x4096_S256x128_S4096x128_0_0_1_1_n_n.rhsIdx i q 1).val = (i 1).val := by
  unfold DotDims.rhsIdx
  rw [dif_neg (show ¬(1 : Fin S256x128.rank) ∈ dot_S256x4096_S256x128_S4096x128_0_0_1_1_n_n.rhsBatch by decide), dif_pos (show (1 : Fin S256x128.rank) ∈ dot_S256x4096_S256x128_S4096x128_0_0_1_1_n_n.rhsNonContracting by decide)]
  rfl

/-- A [256, 4096] by [256, 128] product contracted over the leading axis of both, into the zero accumulator, at
    (j, f): the sum over the 256 rows r of the left operand at (r, j) times the right at (r, f). -/
private theorem matmulA_apply (L : FVec Ideal S256x4096 .bf16) (R : FVec Ideal S256x128 .bf16) (j : Fin 4096) (f : Fin 128) :
    matmul dot_S256x4096_S256x128_S4096x128_0_0_1_1_n_n none L R (constant (F := Ideal) S4096x128 .f32 0x00000000#32) (ix2 j f)
      = ∑ r : Fin 256, L (ix2 r j) * R (ix2 r f) := by
  simp only [matmul]
  rw [Ideal.matmul_constant_zero_apply, ← Equiv.sum_comp (ValueIdx.contrEquiv1 dot_S256x4096_S256x128_S4096x128_0_0_1_1_n_n 256 rfl rfl).symm]
  refine Finset.sum_congr rfl fun k _ => ?_
  have hk := ValueIdx.contrEquiv1_symm_val dot_S256x4096_S256x128_S4096x128_0_0_1_1_n_n 256 rfl rfl k
  have el : dot_S256x4096_S256x128_S4096x128_0_0_1_1_n_n.lhsIdx (ix2 j f) ((ValueIdx.contrEquiv1 dot_S256x4096_S256x128_S4096x128_0_0_1_1_n_n 256 rfl rfl).symm k) = ix2 k j := funext fun a => Fin.ext (by
    match a with
    | ⟨0, _⟩ => exact (lhsA_0 _ _).trans hk
    | ⟨1, _⟩ => exact lhsA_1 _ _)
  have er : dot_S256x4096_S256x128_S4096x128_0_0_1_1_n_n.rhsIdx (ix2 j f) ((ValueIdx.contrEquiv1 dot_S256x4096_S256x128_S4096x128_0_0_1_1_n_n 256 rfl rfl).symm k) = ix2 k f := funext fun a => Fin.ext (by
    match a with
    | ⟨0, _⟩ => exact (rhsA_0 _ _).trans hk
    | ⟨1, _⟩ => exact rhsA_1 _ _)
  rw [el, er]

/-- One tile added to the neighbour sums. -/
theorem pay4_apply (v3 : Vec Ideal S1x256x4096 .i32) (v10 : Vec Ideal S1x256x128 .f32) (v14 : Vec Ideal S4096x128 .f32)
    (j : Fin 4096) (f : Fin 128) :
    k0_pay4 v3 v10 v14 (ix2 j f) = v14 (ix2 j f) + ∑ r : Fin 256, ind (v3 (ix3 (0 : Fin 1) r j)) * v10 (ix3 (0 : Fin 1) r f) := by
  unfold k0_pay4
  show shapeCast S4096x128 (addf v14 (matmul dot_S256x4096_S256x128_S4096x128_0_0_1_1_n_n none (k0_pay3 v3)
      (truncf .bf16 (shapeCast S256x128 v10 shapeCasts_S1x256x128_S256x128) bitsLt_bf16_f32)
      (constant (F := Ideal) S4096x128 .f32 0x00000000#32))) shapeCasts_S4096x128_S4096x128 (ix2 j f) = _
  rw [shapeCast_self, addf_apply, matmulA_apply]
  refine congrArg (v14 (ix2 j f) + ·) (Finset.sum_congr rfl fun r _ => ?_)
  rw [pay3_apply, truncf_apply, shapeCast_1ab_ab_apply]

/-! ## The in-degree: the mask against a column of ones -/

/-- The bf16 word of 1.0 is the extended real 1. -/
private theorem ofBits_one_bf16 : Ideal.ofBits .bf16 0x3F80#16 = 1 := by
  simp [Ideal.ofBits, Ideal.ieee, -EReal.coe_mul]; norm_num

private theorem lhsB_0 (i : S4096x1.Idx) (q : dot_S256x4096_S256x1_S4096x1_0_0_1_1_n_n.contr.Idx) :
    (dot_S256x4096_S256x1_S4096x1_0_0_1_1_n_n.lhsIdx i q 0).val = (q ⟨0, by decide⟩).val :=
  dot_S256x4096_S256x1_S4096x1_0_0_1_1_n_n.lhsIdx_val_of_single rfl i q
private theorem lhsB_1 (i : S4096x1.Idx) (q : dot_S256x4096_S256x1_S4096x1_0_0_1_1_n_n.contr.Idx) :
    (dot_S256x4096_S256x1_S4096x1_0_0_1_1_n_n.lhsIdx i q 1).val = (i 0).val := by
  unfold DotDims.lhsIdx
  rw [dif_neg (show ¬(1 : Fin S256x4096.rank) ∈ dot_S256x4096_S256x1_S4096x1_0_0_1_1_n_n.lhsBatch by decide), dif_pos (show (1 : Fin S256x4096.rank) ∈ dot_S256x4096_S256x1_S4096x1_0_0_1_1_n_n.lhsNonContracting by decide)]
  rfl
private theorem rhsB_0 (i : S4096x1.Idx) (q : dot_S256x4096_S256x1_S4096x1_0_0_1_1_n_n.contr.Idx) :
    (dot_S256x4096_S256x1_S4096x1_0_0_1_1_n_n.rhsIdx i q 0).val = (q ⟨0, by decide⟩).val :=
  dot_S256x4096_S256x1_S4096x1_0_0_1_1_n_n.rhsIdx_val_of_single rfl i q
private theorem rhsB_1 (i : S4096x1.Idx) (q : dot_S256x4096_S256x1_S4096x1_0_0_1_1_n_n.contr.Idx) :
    (dot_S256x4096_S256x1_S4096x1_0_0_1_1_n_n.rhsIdx i q 1).val = (i 1).val := by
  unfold DotDims.rhsIdx
  rw [dif_neg (show ¬(1 : Fin S256x1.rank) ∈ dot_S256x4096_S256x1_S4096x1_0_0_1_1_n_n.rhsBatch by decide), dif_pos (show (1 : Fin S256x1.rank) ∈ dot_S256x4096_S256x1_S4096x1_0_0_1_1_n_n.rhsNonContracting by decide)]
  rfl

/-- A [256, 4096] by [256, 1] product contracted over the leading axis of both, into the zero accumulator, at
    (j, 0): the sum over the 256 rows r of the left operand at (r, j) times the right at (r, 0). -/
private theorem matmulB_apply (L : FVec Ideal S256x4096 .bf16) (R : FVec Ideal S256x1 .bf16) (j : Fin 4096) :
    matmul dot_S256x4096_S256x1_S4096x1_0_0_1_1_n_n none L R (constant (F := Ideal) S4096x1 .f32 0x00000000#32) (ix2 j (0 : Fin 1))
      = ∑ r : Fin 256, L (ix2 r j) * R (ix2 r (0 : Fin 1)) := by
  simp only [matmul]
  rw [Ideal.matmul_constant_zero_apply, ← Equiv.sum_comp (ValueIdx.contrEquiv1 dot_S256x4096_S256x1_S4096x1_0_0_1_1_n_n 256 rfl rfl).symm]
  refine Finset.sum_congr rfl fun k _ => ?_
  have hk := ValueIdx.contrEquiv1_symm_val dot_S256x4096_S256x1_S4096x1_0_0_1_1_n_n 256 rfl rfl k
  have el : dot_S256x4096_S256x1_S4096x1_0_0_1_1_n_n.lhsIdx (ix2 j (0 : Fin 1)) ((ValueIdx.contrEquiv1 dot_S256x4096_S256x1_S4096x1_0_0_1_1_n_n 256 rfl rfl).symm k) = ix2 k j := funext fun a => Fin.ext (by
    match a with
    | ⟨0, _⟩ => exact (lhsB_0 _ _).trans hk
    | ⟨1, _⟩ => exact lhsB_1 _ _)
  have er : dot_S256x4096_S256x1_S4096x1_0_0_1_1_n_n.rhsIdx (ix2 j (0 : Fin 1)) ((ValueIdx.contrEquiv1 dot_S256x4096_S256x1_S4096x1_0_0_1_1_n_n 256 rfl rfl).symm k) = ix2 k (0 : Fin 1) := funext fun a => Fin.ext (by
    match a with
    | ⟨0, _⟩ => exact (rhsB_0 _ _).trans hk
    | ⟨1, _⟩ => exact rhsB_1 _ _)
  rw [el, er]

/-- One tile added to the in-degrees. -/
theorem pay5_apply (v3 : Vec Ideal S1x256x4096 .i32) (v20 : Vec Ideal S4096x1 .f32) (j : Fin 4096) :
    k0_pay5 v3 v20 (ix2 j (0 : Fin 1)) = v20 (ix2 j (0 : Fin 1)) + ∑ r : Fin 256, ind (v3 (ix3 (0 : Fin 1) r j)) := by
  unfold k0_pay5
  show shapeCast S4096x1 (addf v20 (matmul dot_S256x4096_S256x1_S4096x1_0_0_1_1_n_n none (k0_pay3 v3)
      (broadcast S256x1 (Scalar.ofBits (F := Ideal) .bf16 0x3F80#16))
      (constant (F := Ideal) S4096x1 .f32 0x00000000#32))) shapeCasts_S4096x1_S4096x1 (ix2 j (0 : Fin 1)) = _
  rw [shapeCast_self, addf_apply, matmulB_apply]
  refine congrArg (v20 (ix2 j (0 : Fin 1)) + ·) (Finset.sum_congr rfl fun r _ => ?_)
  rw [pay3_apply, broadcast_apply]
  show ind (v3 (ix3 (0 : Fin 1) r j)) * Ideal.ofBits .bf16 0x3F80#16 = _
  rw [ofBits_one_bf16, mul_one]

/-! ## The finish -/

/-- A [a, 1] column broadcast to [a, b] reads, at (p, c), the column at p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

private theorem lhsC_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
private theorem lhsC_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
private theorem rhsC_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
private theorem rhsC_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- A [4096, 128] by [128, 128] product, into the zero accumulator, at (j, u): the sum over the 128 features f of
    the left operand at (j, f) times the right at (f, u). -/
private theorem matmulC_apply (L : FVec Ideal S4096x128 .bf16) (R : FVec Ideal S128x128 .bf16) (j : Fin 4096) (u : Fin 128) :
    matmul dot_S4096x128_S128x128_S4096x128_1_0_0_1_n_n none L R (constant (F := Ideal) S4096x128 .f32 0x00000000#32) (ix2 j u)
      = ∑ f : Fin 128, L (ix2 j f) * R (ix2 f u) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 j u) ((ValueIdx.contrEquiv1 dot_S4096x128_S128x128_S4096x128_1_0_0_1_n_n 128 rfl rfl).symm k) = ix2 j k := funext fun a => Fin.ext (by
    match a with
    | ⟨0, _⟩ => exact lhsC_0 _ _
    | ⟨1, _⟩ => exact (lhsC_1 _ _).trans hk)
  have er : dot_S4096x128_S128x128_S4096x128_1_0_0_1_n_n.rhsIdx (ix2 j u) ((ValueIdx.contrEquiv1 dot_S4096x128_S128x128_S4096x128_1_0_0_1_n_n 128 rfl rfl).symm k) = ix2 k u := funext fun a => Fin.ext (by
    match a with
    | ⟨0, _⟩ => exact (rhsC_0 _ _).trans hk
    | ⟨1, _⟩ => exact rhsC_1 _ _)
  rw [el, er]

/-- The finish, at node j and unit u. -/
theorem pay6_apply (v29 : Vec Ideal S4096x128 .f32) (v30 : Vec Ideal S4096x1 .f32) (v36 v38 : Vec Ideal S128x128 .f32)
    (v40 : Vec Ideal S1x4096x128 .f32) (v46 : Vec Ideal S1x128 .f32) (j : Fin 4096) (u : Fin 128) :
    k0_pay6 v29 v30 v36 v38 v40 v46 (ix3 (0 : Fin 1) j u)
      = max ((∑ f : Fin 128, v40 (ix3 (0 : Fin 1) j f) * v38 (ix2 f u))
            + (∑ f : Fin 128, Ideal.div (v29 (ix2 j f)) (max (v30 (ix2 j (0 : Fin 1))) (Ideal.ofBits .f32 0x3F800000#32)) * v36 (ix2 f u))
            + v46 (ix2 (0 : Fin 1) u))
          (Ideal.ofBits .f32 0x00000000#32) := by
  unfold k0_pay6
  show shapeCast S1x4096x128
      (maximumf
        (addf
          (addf
            (matmul dot_S4096x128_S128x128_S4096x128_1_0_0_1_n_n none
              (truncf .bf16 (shapeCast S4096x128 v40 shapeCasts_S1x4096x128_S4096x128) bitsLt_bf16_f32)
              (truncf .bf16 v38 bitsLt_bf16_f32) (constant (F := Ideal) S4096x128 .f32 0x00000000#32))
            (matmul dot_S4096x128_S128x128_S4096x128_1_0_0_1_n_n none
              (truncf .bf16 (divf v29 (broadcastTo S4096x128
                (maximumf v30 (broadcast S4096x1 (Scalar.ofBits (F := Ideal) .f32 0x3F800000#32))) broadcasts_S4096x1_S4096x128))
                bitsLt_bf16_f32)
              (truncf .bf16 v36 bitsLt_bf16_f32) (constant (F := Ideal) S4096x128 .f32 0x00000000#32)))
          (broadcastTo S4096x128 (shapeCast S1x128 v46 shapeCasts_S1x128_S1x128) broadcasts_S1x128_S4096x128))
        (broadcast S4096x128 (Scalar.ofBits (F := Ideal) .f32 0x00000000#32)))
      shapeCasts_S4096x128_S1x4096x128 (ix3 (0 : Fin 1) j u) = _
  rw [shapeCast_ab_1ab_apply, maximumf_apply, addf_apply, addf_apply, matmulC_apply, matmulC_apply,
    broadcastTo_1b_ab_apply, shapeCast_self, broadcast_apply]
  refine congrArg₂ max (congrArg₂ (· + ·) (congrArg₂ (· + ·) (Finset.sum_congr rfl fun f _ => ?_) (Finset.sum_congr rfl fun f _ => ?_)) rfl) rfl
  · rw [truncf_apply, truncf_apply, shapeCast_1ab_ab_apply]
  · rw [truncf_apply, truncf_apply, divf_apply, broadcastTo_a1_ab_apply, maximumf_apply, broadcast_apply]
    rfl

end Cert.KernelIdeal.Mpnn

end
-- ==== Proof.KI.Value.lean ====
/-
  What the idealized kernel leaves in its result array, on the extended reals.
  Grid point t is sender tile k = t mod 16 of batch b = t div 16. The adjacency window's block there is rows
  256 k … 256 k + 255 of adj[b], the sender window's the same rows of x[b], the receiver window's all of x[b], the
  result window's all of out[b]; the weights' and the bias row's blocks are the whole arrays.
  After tile k of batch b the neighbour-sum accumulator holds, at (j, f), the sum over the senders i < 256 (k + 1) of
  edge(i, j) · x[b, i, f], and the in-degree accumulator the sum of edge(i, j) over the same senders: by induction
  along the batch's tiles, each tile adding its 256 senders' terms to what the tile before left, the first tile to
  the zero it has just written. After the last tile those are the specification's neighbour sum and in-degree, and
  the rows that tile stores are the specification's rows of batch b. The result window's blocks, one per batch,
  written back at each batch's last tile, cover the array: it ends at the specification's result.
-/
import proofs.«118113_j2903397893033_1_alg».proof.Proof.KI.Launch
import proofs.«118113_j2903397893033_1_alg».proof.Proof.KI.Pieces
import proofs.«118113_j2903397893033_1_alg».proof.Proof.KI.Payload
import Mathlib.Algebra.BigOperators.Fin

set_option maxRecDepth 16384

noncomputable section

open scoped BigOperators

namespace Cert.KernelIdeal.Mpnn

open Cert.KernelIdeal Cert.KernelIdeal.Gen Cert.MpnnSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The arrays and the blocks, at their literal types -/

abbrev xA (c : Dev nD) : Feat := m ((c : Thread nD τ).loc main_arg0)
abbrev adjA (c : Dev nD) : Adj := m ((c : Thread nD τ).loc main_arg1)
abbrev wmA (c : Dev nD) : Wt := m ((c : Thread nD τ).loc main_arg2)
abbrev wuA (c : Dev nD) : Wt := m ((c : Thread nD τ).loc main_arg3)
abbrev bA (c : Dev nD) : BiasV := m ((c : Thread nD τ).loc main_arg4)

abbrev adjBlk (c : Dev nD) (t : Fin cfg0.N) : Vec Ideal S1x256x4096 .i32 := iblk m c 0 t
abbrev xsBlk (c : Dev nD) (t : Fin cfg0.N) : Vec Ideal S1x256x128 .f32 := iblk m c 1 t
abbrev xrBlk (c : Dev nD) (t : Fin cfg0.N) : Vec Ideal S1x4096x128 .f32 := iblk m c 2 t
abbrev wmBlk (c : Dev nD) (t : Fin cfg0.N) : Vec Ideal S128x128 .f32 := iblk m c 3 t
abbrev wuBlk (c : Dev nD) (t : Fin cfg0.N) : Vec Ideal S128x128 .f32 := iblk m c 4 t
abbrev bBlk (c : Dev nD) (t : Fin cfg0.N) : Vec Ideal S1x128 .f32 := iblk m c 5 t

/-! ## A grid point's batch and sender rows -/

theorem pt_lt (t : Fin cfg0.N) : t.val < 128 := lt_of_lt_of_eq t.isLt N_0

/-- The batch of grid point `t`, -/
def bOf (t : Fin cfg0.N) : Fin 8 := ⟨t.val / 16, by have := pt_lt t; omega⟩
/-- and sender `r` of its tile, as a sender of the batch. -/
def rowOf (t : Fin cfg0.N) (r : Fin 256) : Fin 4096 := ⟨256 * (t.val % 16) + r.val, by have := r.isLt; omega⟩

/-- The printed index maps over the grid: batch and tile for the adjacency and sender windows, batch alone for the
    receiver and result windows, the one block for the weights and the bias row. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val / 16 ∧ win0_6.index t (1 : Fin 3) = 0 ∧ win0_6.index t (2 : Fin 3) = 0 :=
  (by decide +kernel : ∀ t : Fin grid0.N, _)

/-! ## The blocks read at an index -/

theorem adj_at (c : Dev nD) (t : Fin cfg0.N) (r : Fin 256) (j : Fin 4096) :
    adjBlk m c t (ix3 (0 : Fin 1) r j) = adjA m c (ix3 (bOf t) (rowOf t r) j) := by
  rw [show adjA m c = V m c main_arg1 from (V_main_arg1 m c).symm]
  show V m c main_arg1 (((cfg0.win 0).blk t).view.emb (ix3 (0 : Fin 1) r j)) = V m c main_arg1 _
  refine congrArg (V m c main_arg1) (funext fun a => Fin.ext ?_)
  obtain ⟨e0, e1, e2, -⟩ := idx_facts t
  match a with
  | ⟨0, _⟩ => show win0_0.index t (0 : Fin 3) * 1 + 1 * 0 = t.val / 16; omega
  | ⟨1, _⟩ => show win0_0.index t (1 : Fin 3) * 256 + 1 * r.val = 256 * (t.val % 16) + r.val; omega
  | ⟨2, _⟩ => show win0_0.index t (2 : Fin 3) * 4096 + 1 * j.val = j.val; omega

theorem xs_at (c : Dev nD) (t : Fin cfg0.N) (r : Fin 256) (f : Fin 128) :
    xsBlk m c t (ix3 (0 : Fin 1) r f) = xA m c (ix3 (bOf t) (rowOf t r) f) := by
  rw [show xA m c = V m c main_arg0 from (V_main_arg0 m c).symm]
  show V m c main_arg0 (((cfg0.win 1).blk t).view.emb (ix3 (0 : Fin 1) r f)) = V m c main_arg0 _
  refine congrArg (V m c main_arg0) (funext fun a => Fin.ext ?_)
  obtain ⟨-, -, -, e0, e1, e2, -⟩ := idx_facts t
  match a with
  | ⟨0, _⟩ => show win0_1.index t (0 : Fin 3) * 1 + 1 * 0 = t.val / 16; omega
  | ⟨1, _⟩ => show win0_1.index t (1 : Fin 3) * 256 + 1 * r.val = 256 * (t.val % 16) + r.val; omega
  | ⟨2, _⟩ => show win0_1.index t (2 : Fin 3) * 128 + 1 * f.val = f.val; omega

theorem xr_at (c : Dev nD) (t : Fin cfg0.N) (j : Fin 4096) (f : Fin 128) :
    xrBlk m c t (ix3 (0 : Fin 1) j f) = xA m c (ix3 (bOf t) j f) := by
  rw [show xA m c = V m c main_arg0 from (V_main_arg0 m c).symm]
  show V m c main_arg0 (((cfg0.win 2).blk t).view.emb (ix3 (0 : Fin 1) j f)) = V m c main_arg0 _
  refine congrArg (V m c main_arg0) (funext fun a => Fin.ext ?_)
  obtain ⟨-, -, -, -, -, -, e0, e1, e2, -⟩ := idx_facts t
  match a with
  | ⟨0, _⟩ => show win0_2.index t (0 : Fin 3) * 1 + 1 * 0 = t.val / 16; omega
  | ⟨1, _⟩ => show win0_2.index t (1 : Fin 3) * 4096 + 1 * j.val = j.val; omega
  | ⟨2, _⟩ => show win0_2.index t (2 : Fin 3) * 128 + 1 * f.val = f.val; omega

theorem wm_at (c : Dev nD) (t : Fin cfg0.N) (f u : Fin 128) : wmBlk m c t (ix2 f u) = wmA m c (ix2 f u) := by
  rw [show wmA m c = V m c main_arg2 from (V_main_arg2 m c).symm]
  show V m c main_arg2 (((cfg0.win 3).blk t).view.emb (ix2 f u)) = V m c main_arg2 _
  refine congrArg (V m c main_arg2) (funext fun a => Fin.ext ?_)
  obtain ⟨-, -, -, -, -, -, -, -, -, e0, e1, -⟩ := idx_facts t
  match a with
  | ⟨0, _⟩ => show win0_3.index t (0 : Fin 2) * 128 + 1 * f.val = f.val; omega
  | ⟨1, _⟩ => show win0_3.index t (1 : Fin 2) * 128 + 1 * u.val = u.val; omega

theorem wu_at (c : Dev nD) (t : Fin cfg0.N) (f u : Fin 128) : wuBlk m c t (ix2 f u) = wuA m c (ix2 f u) := by
  rw [show wuA m c = V m c main_arg3 from (V_main_arg3 m c).symm]
  show V m c main_arg3 (((cfg0.win 4).blk t).view.emb (ix2 f u)) = V m c main_arg3 _
  refine congrArg (V m c main_arg3) (funext fun a => Fin.ext ?_)
  obtain ⟨-, -, -, -, -, -, -, -, -, -, -, e0, e1, -⟩ := idx_facts t
  match a with
  | ⟨0, _⟩ => show win0_4.index t (0 : Fin 2) * 128 + 1 * f.val = f.val; omega
  | ⟨1, _⟩ => show win0_4.index t (1 : Fin 2) * 128 + 1 * u.val = u.val; omega

/-- The bias row the region finds is the bias vector laid out as one row. -/
theorem V_bias (c : Dev nD) :
    (V m c main_v0 : S1x128.Idx → EReal) = shapeCast S1x128 (m ((c : Thread nD τ).loc main_arg4)) shapeCasts_S128_S1x128 := by
  dsimp only [V, hostOps0]; after_results; rfl

theorem b_at (c : Dev nD) (t : Fin cfg0.N) (u : Fin 128) : bBlk m c t (ix2 (0 : Fin 1) u) = bA m c (ix1 u) := by
  have hb : bBlk m c t (ix2 (0 : Fin 1) u) = (V m c main_v0 : S1x128.Idx → EReal) (ix2 (0 : Fin 1) u) := by
    show V m c main_v0 (((cfg0.win 5).blk t).view.emb (ix2 (0 : Fin 1) u)) = V m c main_v0 _
    refine congrArg (V m c main_v0) (funext fun a => Fin.ext ?_)
    obtain ⟨-, -, -, -, -, -, -, -, -, -, -, -, -, e0, e1, -⟩ := idx_facts t
    match a with
    | ⟨0, _⟩ => show win0_5.index t (0 : Fin 2) * 1 + 1 * 0 = 0; omega
    | ⟨1, _⟩ => show win0_5.index t (1 : Fin 2) * 128 + 1 * u.val = u.val; omega
  rw [hb, V_bias]
  refine shapeCast_apply _ _ _ (ix1 u) ?_
  rw [Shape.rowMajor_val_one, Shape.rowMajor_val_two]
  show u.val = 0 * 128 + u.val
  omega

/-- A block of the result window read at an index is the array at that batch's row. -/
theorem out_at (t : Fin cfg0.N) (G : S8x4096x128.Idx → EReal) (j : Fin 4096) (u : Fin 128) :
    ((cfg0.win 6).blk t).view.read (Elt Ideal) G (ix3 (0 : Fin 1) j u) = G (ix3 (bOf t) j u) := by
  show G (((cfg0.win 6).blk t).view.emb (ix3 (0 : Fin 1) j u)) = G _
  refine congrArg G (funext fun a => Fin.ext ?_)
  obtain ⟨-, -, -, -, -, -, -, -, -, -, -, -, -, -, -, e0, e1, e2⟩ := idx_facts t
  match a with
  | ⟨0, _⟩ => show win0_6.index t (0 : Fin 3) * 1 + 1 * 0 = t.val / 16; omega
  | ⟨1, _⟩ => show win0_6.index t (1 : Fin 3) * 4096 + 1 * j.val = j.val; omega
  | ⟨2, _⟩ => show win0_6.index t (2 : Fin 3) * 128 + 1 * u.val = u.val; omega

/-! ## One sender's terms, and a tile's sums -/

/-- Sender `i`'s term of receiver `j`'s neighbour sum in feature `f` (nothing past the last sender), -/
def termM (c : Dev nD) (b : Fin 8) (j : Fin 4096) (f : Fin 128) (i : ℕ) : EReal :=
  if h : i < 4096 then edge (adjA m c) b ⟨i, h⟩ j * xA m c (ix3 b ⟨i, h⟩ f) else 0
/-- and of its in-degree. -/
def termD (c : Dev nD) (b : Fin 8) (j : Fin 4096) (i : ℕ) : EReal :=
  if h : i < 4096 then edge (adjA m c) b ⟨i, h⟩ j else 0

theorem tileM (c : Dev nD) (t : Fin cfg0.N) (j : Fin 4096) (f : Fin 128) :
    ∑ r : Fin 256, ind (adjBlk m c t (ix3 (0 : Fin 1) r j)) * xsBlk m c t (ix3 (0 : Fin 1) r f)
      = ∑ i ∈ Finset.range 256, termM m c (bOf t) j f (256 * (t.val % 16) + i) := by
  rw [Finset.sum_range]
  refine Finset.sum_congr rfl fun r _ => ?_
  rw [adj_at, xs_at]
  unfold termM
  rw [dif_pos (show 256 * (t.val % 16) + r.val < 4096 from (rowOf t r).isLt)]
  rfl

theorem tileD (c : Dev nD) (t : Fin cfg0.N) (j : Fin 4096) :
    ∑ r : Fin 256, ind (adjBlk m c t (ix3 (0 : Fin 1) r j))
      = ∑ i ∈ Finset.range 256, termD m c (bOf t) j (256 * (t.val % 16) + i) := by
  rw [Finset.sum_range]
  refine Finset.sum_congr rfl fun r _ => ?_
  rw [adj_at]
  unfold termD
  rw [dif_pos (show 256 * (t.val % 16) + r.val < 4096 from (rowOf t r).isLt)]
  rfl

/-! ## The accumulators after each tile -/

theorem bOf_pred (t : Fin cfg0.N) (h0 : ¬t.val % 16 = 0) : bOf ⟨t.val - 1, pred_lt t⟩ = bOf t :=
  Fin.ext (by show (t.val - 1) / 16 = t.val / 16; omega)

/-- After the body at grid point `n` the accumulators hold the sums of the terms of the senders of the batch's tiles
    so far. -/
theorem acc_closed (c : Dev nD) : ∀ (n : ℕ) (hn : n < cfg0.N) (j : Fin 4096),
    (∀ f : Fin 128, (accAt m c n hn).1 (ix2 j f) = ∑ i ∈ Finset.range (256 * (n % 16 + 1)), termM m c (bOf ⟨n, hn⟩) j f i)
    ∧ (accAt m c n hn).2 (ix2 j (0 : Fin 1)) = ∑ i ∈ Finset.range (256 * (n % 16 + 1)), termD m c (bOf ⟨n, hn⟩) j i := by
  intro n
  induction n with
  | zero =>
    intro hn j
    have h0 : (⟨0, hn⟩ : Fin cfg0.N).val % 16 = 0 := rfl
    have e := accAt_first m c ⟨0, hn⟩ h0
    constructor
    · intro f
      rw [show accAt m c 0 hn = accAt m c (⟨0, hn⟩ : Fin cfg0.N).val (⟨0, hn⟩ : Fin cfg0.N).isLt from rfl, e]; dsimp only
      rw [mFirst_eq, pay4_apply, pay1_apply, zero_add]
      exact (tileM m c ⟨0, hn⟩ j f).trans (Finset.sum_congr rfl fun i _ => by rw [show 256 * ((⟨0, hn⟩ : Fin cfg0.N).val % 16) + i = i from by show 256 * (0 % 16) + i = i; omega])
    · rw [show accAt m c 0 hn = accAt m c (⟨0, hn⟩ : Fin cfg0.N).val (⟨0, hn⟩ : Fin cfg0.N).isLt from rfl, e]; dsimp only
      rw [dFirst_eq, pay5_apply, pay2_apply, zero_add]
      exact (tileD m c ⟨0, hn⟩ j).trans (Finset.sum_congr rfl fun i _ => by rw [show 256 * ((⟨0, hn⟩ : Fin cfg0.N).val % 16) + i = i from by show 256 * (0 % 16) + i = i; omega])
  | succ n ih =>
    intro hn j
    let t : Fin cfg0.N := ⟨n + 1, hn⟩
    have hN : n + 1 < 128 := pt_lt t
    by_cases h0 : (n + 1) % 16 = 0
    · have e := accAt_first m c t h0
      have hk : 256 * ((n + 1) % 16 + 1) = 256 := by omega
      constructor
      · intro f
        rw [show accAt m c (n + 1) hn = accAt m c t.val t.isLt from rfl, e]; dsimp only
        rw [mFirst_eq, pay4_apply, pay1_apply, zero_add, hk]
        exact (tileM m c t j f).trans (Finset.sum_congr rfl fun i _ => by rw [show 256 * (t.val % 16) + i = i from by show 256 * ((n + 1) % 16) + i = i; omega])
      · rw [show accAt m c (n + 1) hn = accAt m c t.val t.isLt from rfl, e]; dsimp only
        rw [dFirst_eq, pay5_apply, pay2_apply, zero_add, hk]
        exact (tileD m c t j).trans (Finset.sum_congr rfl fun i _ => by rw [show 256 * (t.val % 16) + i = i from by show 256 * ((n + 1) % 16) + i = i; omega])
    · obtain ⟨ihM, ihD⟩ := ih (Nat.lt_of_succ_lt hn) j
      have hb : bOf ⟨n, Nat.lt_of_succ_lt hn⟩ = bOf t := bOf_pred t h0
      have hk : 256 * ((n + 1) % 16 + 1) = 256 * (n % 16 + 1) + 256 := by omega
      have hk' : 256 * (t.val % 16) = 256 * (n % 16 + 1) := by show 256 * ((n + 1) % 16) = _; omega
      have hprev : accAt m c (t.val - 1) (pred_lt t) = accAt m c n (Nat.lt_of_succ_lt hn) := rfl
      by_cases h1 : (n + 1) % 16 = 15
      · have e := accAt_last m c t h0 h1
        constructor
        · intro f
          rw [show accAt m c (n + 1) hn = accAt m c t.val t.isLt from rfl, e]; dsimp only
          rw [mLast_eq, pay4_apply, hprev, ihM f, hb, hk, Finset.sum_range_add, tileM, hk']
        · rw [show accAt m c (n + 1) hn = accAt m c t.val t.isLt from rfl, e]; dsimp only
          rw [dLast_eq, pay5_apply, hprev, ihD, hb, hk, Finset.sum_range_add, tileD, hk']
      · have e := accAt_mid m c t h0 h1
        constructor
        · intro f
          rw [show accAt m c (n + 1) hn = accAt m c t.val t.isLt from rfl, e]; dsimp only
          rw [mMid_eq, pay4_apply, hprev, ihM f, hb, hk, Finset.sum_range_add, tileM, hk']
        · rw [show accAt m c (n + 1) hn = accAt m c t.val t.isLt from rfl, e]; dsimp only
          rw [dMid_eq, pay5_apply, hprev, ihD, hb, hk, Finset.sum_range_add, tileD, hk']

/-- After a batch's last tile they are the specification's neighbour sums and in-degrees. -/
theorem acc_last (c : Dev nD) (t : Fin cfg0.N) (h1 : t.val % 16 = 15) (j : Fin 4096) :
    (∀ f : Fin 128, (accAt m c t.val t.isLt).1 (ix2 j f) = nsum (xA m c) (adjA m c) (bOf t) j f)
    ∧ (accAt m c t.val t.isLt).2 (ix2 j (0 : Fin 1)) = deg (adjA m c) (bOf t) j := by
  obtain ⟨hM, hD⟩ := acc_closed m c t.val t.isLt j
  have hk : 256 * (t.val % 16 + 1) = 4096 := by omega
  constructor
  · intro f
    rw [hM f, hk, Finset.sum_range]
    unfold nsum
    exact Finset.sum_congr rfl fun i _ => by unfold termM; rw [dif_pos i.isLt]
  · rw [hD, hk, Finset.sum_range]
    unfold deg
    exact Finset.sum_congr rfl fun i _ => by unfold termD; rw [dif_pos i.isLt]

/-! ## The result array -/

/-- The specification's result of the argument arrays, as contents of the result window's array. -/
abbrev G (c : Dev nD) : S8x4096x128.Idx → EReal := out (xA m c) (adjA m c) (wmA m c) (wuA m c) (bA m c)

/-- What a batch's last tile writes back is that batch's block of the specification's result. -/
theorem flushed_eq (c : Dev nD) (t : Fin cfg0.N) (h1 : t.val % 16 = 15) :
    (dats m 0 c).flushed 6 t = ((cfg0.win 6).blk t).view.read (Elt Ideal) (G m c) := by
  have h0 : ¬t.val % 16 = 0 := by omega
  have hM : (accAt m c t.val t.isLt).1
      = k0_pay4 (adjBlk m c t) (xsBlk m c t) (accAt m c (t.val - 1) (pred_lt t)).1 := by
    rw [accAt_last m c t h0 h1]; dsimp only
    exact mLast_eq c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of h0) (last_of h1) (iblk m c 0 t) (iblk m c 1 t) (iblk m c 2 t) (iblk m c 3 t) (iblk m c 4 t) (iblk m c 5 t) _ _
  have hD : (accAt m c t.val t.isLt).2
      = k0_pay5 (adjBlk m c t) (accAt m c (t.val - 1) (pred_lt t)).2 := by
    rw [accAt_last m c t h0 h1]; dsimp only
    exact dLast_eq c (grid0.coords t) (ms0 t) (hs0 t) (ms1 t) (hs1 t) (ms2 t) (hs2 t) (ms3 t) (hs3 t) (ms4 t) (hs4 t) (ms5 t) (hs5 t) (ms6 t) (hs6 t) accM (Memref.isWhole_whole _) accD (Memref.isWhole_whole _) (not_first_of h0) (last_of h1) (iblk m c 0 t) (iblk m c 1 t) (iblk m c 2 t) (iblk m c 3 t) (iblk m c 4 t) (iblk m c 5 t) _ _
  show (cfg0.win 6).cut (grid0.coords t) ((dats m 0 c).after 6 t) = _
  rw [after_6, outAt_last m c t h0 h1, oLast_eq, ← hM, ← hD]
  funext y
  obtain ⟨z, j, u, rfl⟩ : ∃ (z : Fin 1) (j : Fin 4096) (u : Fin 128), y = ix3 z j u := ⟨y 0, y 1, y 2, eq_ix3 y⟩
  obtain rfl : z = 0 := Subsingleton.elim _ _
  obtain ⟨aM, aD⟩ := acc_last m c t h1 j
  rw [out_at]
  refine (pay6_apply _ _ _ _ _ _ j u).trans ?_
  show _ = Cert.MpnnSpec.outAt (xA m c) (adjA m c) (wmA m c) (wuA m c) (bA m c) (bOf t) j u
  unfold Cert.MpnnSpec.outAt nmean
  simp only [aM, aD, xr_at, wm_at, wu_at, b_at]

/-- An index of the result array is in point `t`'s block iff each coordinate is in the block's range on its axis. -/
theorem mem_blk (t : Fin cfg0.N) (i : S8x4096x128.Idx) :
    i ∈ ((cfg0.win 6).blk t).view.set ↔ ∀ a : Fin 3, win0_6.index t a * S1x4096x128.size a ≤ (i a).val ∧ (i a).val < win0_6.index t a * S1x4096x128.size a + S1x4096x128.size a := by
  show i ∈ ((View.whole main_v1).slice (win0_6.rect t)).set ↔ _
  rw [View.set_slice_whole, Rect.mem_set_unit]
  exact Iff.rfl

/-- Every index of the result array is in the block some batch's last tile writes back. -/
theorem covered (i : S8x4096x128.Idx) : ∃ t : Fin cfg0.N, (cfg0.win 6).flush t = true ∧ i ∈ ((cfg0.win 6).blk t).view.set := by
  have hi0 : (i 0).val < 8 := (i 0).isLt
  have hi1 : (i 1).val < 4096 := (i 1).isLt
  have hi2 : (i 2).val < 128 := (i 2).isLt
  let t : Fin cfg0.N := ⟨16 * (i 0).val + 15, by have : cfg0.N = 128 := N_0; omega⟩
  have ht : t.val = 16 * (i 0).val + 15 := rfl
  refine ⟨t, (flush0_6 t).mpr (by omega), ?_⟩
  rw [mem_blk]
  obtain ⟨-, -, -, -, -, -, -, -, -, -, -, -, -, -, -, e0, e1, e2⟩ := idx_facts t
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 4096 ≤ (i 1).val ∧ (i 1).val < win0_6.index t (1 : Fin 3) * 4096 + 4096; omega
  | ⟨2, _⟩ => show win0_6.index t (2 : Fin 3) * 128 ≤ (i 2).val ∧ (i 2).val < win0_6.index t (2 : Fin 3) * 128 + 128; omega

/-- The result array after the run is the specification's result of the argument arrays. -/
theorem final (c : Dev nD) : (dats m 0 c).arrAt 6 cfg0.N = G m c :=
  (dats m 0 c).arrAt_eq_of_cover 6 (G m c) (fun t hf => flushed_eq m c t ((flush0_6 t).mp hf)) covered

/-! ## The run, read -/

/-- Every weakly fair execution of the idealized kernel terminates with the result array at the specification's result
    of the argument arrays, which end as launched. -/
theorem run : θ_run defs (onTc (τ := τ) (main (F := Ideal))) ⟨m, fun _ => 0, ρ⟩ fun r => ∀ c : Dev nD,
      r.2.mem ((c.tc : Thread nD τ).loc main_v1) = out (xA m c) (adjA m c) (wmA m c) (wuA m c) (bA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).1 6).trans (final m c),
     ((h c).1 1).trans (((dats m 0 c).arrAt_in 1 rfl _).trans ((A_eq m c 1).trans (V_main_arg0 m c))),
     ((h c).1 0).trans (((dats m 0 c).arrAt_in 0 rfl _).trans ((A_eq m c 0).trans (V_main_arg1 m c))),
     ((h c).1 3).trans (((dats m 0 c).arrAt_in 3 rfl _).trans ((A_eq m c 3).trans (V_main_arg2 m c))),
     ((h c).1 4).trans (((dats m 0 c).arrAt_in 4 rfl _).trans ((A_eq m c 4).trans (V_main_arg3 m c))),
     ((h c).2 main_arg4 (Pipeline.mem_restRefs_of main_arg4 (by decide) (by decide))).trans (V_main_arg4 m c)⟩) (run_main m ρ)

end Cert.KernelIdeal.Mpnn

end
-- ==== Proof.RefSpec.lean ====
/-
  The reference program's result is the message-passing layer of the specification: read one operation at a time at
  an index, its compare-and-convert is the edge indicator, its sum over senders the in-degree (from the zero it
  starts at), its batched contraction the neighbour sum, and the rest — the clamp at one, the broadcasts, the
  quotient, the two products with the weights, the bias and the clamp at zero — the specification's own terms.
-/
import proofs.«118113_j2903397893033_1_alg».proof.Proof.Gen.ReferenceIdeal.Read
import proofs.«118113_j2903397893033_1_alg».proof.Proof.Spec

noncomputable section

open scoped BigOperators

namespace Cert.ReferenceIdeal.RefSpec

open Cert.ReferenceIdeal Cert.ReferenceIdeal.Gen Cert.ReferenceIdeal.Read Cert.MpnnSpec
open Idealize.ShloMosaic Idealize.ShloMosaic.ValueIdx

/-! ### The stages' composed index functions, at an index given by its coordinates -/

private theorem idx3_eq (b : Fin 8) (j k : Fin 4096) : idx_main_v3 (ix2 b j) k = ix3 b k j :=
  funext fun a => Fin.ext (by match a with | ⟨0, _⟩ => rfl | ⟨1, _⟩ => rfl | ⟨2, _⟩ => rfl)

private theorem lidx4_eq (b : Fin 8) (j k : Fin 4096) (u : Fin 128) : lidx_main_v4 (ix3 b j u) k = ix3 b k j :=
  funext fun a => Fin.ext (by match a with | ⟨0, _⟩ => rfl | ⟨1, _⟩ => rfl | ⟨2, _⟩ => rfl)

private theorem ridx4_eq (b : Fin 8) (j k : Fin 4096) (u : Fin 128) : ridx_main_v4 (ix3 b j u) k = ix3 b k u :=
  funext fun a => Fin.ext (by match a with | ⟨0, _⟩ => rfl | ⟨1, _⟩ => rfl | ⟨2, _⟩ => rfl)

private theorem idx8_eq (b : Fin 8) (j : Fin 4096) (u : Fin 128) : idx_main_v8 (ix3 b j u) = ix3 b j (0 : Fin 1) :=
  funext fun a => Fin.ext (by match a with | ⟨0, _⟩ => rfl | ⟨1, _⟩ => rfl | ⟨2, _⟩ => rfl)

private theorem idx7_eq (b : Fin 8) (j : Fin 4096) (z : Fin 1) : idx_main_v7 (ix3 b j z) = ix2 b j :=
  funext fun a => Fin.ext (by match a with | ⟨0, _⟩ => rfl | ⟨1, _⟩ => rfl)

private theorem lidx10_eq (b : Fin 8) (j : Fin 4096) (u f : Fin 128) : lidx_main_v10 (ix3 b j u) f = ix3 b j f :=
  funext fun a => Fin.ext (by match a with | ⟨0, _⟩ => rfl | ⟨1, _⟩ => rfl | ⟨2, _⟩ => rfl)

private theorem ridx10_eq (b : Fin 8) (j : Fin 4096) (u f : Fin 128) : ridx_main_v10 (ix3 b j u) f = ix2 f u :=
  funext fun a => Fin.ext (by match a with | ⟨0, _⟩ => rfl | ⟨1, _⟩ => rfl)

private theorem lidx11_eq (b : Fin 8) (j : Fin 4096) (u f : Fin 128) : lidx_main_v11 (ix3 b j u) f = ix3 b j f :=
  funext fun a => Fin.ext (by match a with | ⟨0, _⟩ => rfl | ⟨1, _⟩ => rfl | ⟨2, _⟩ => rfl)

private theorem ridx11_eq (b : Fin 8) (j : Fin 4096) (u f : Fin 128) : ridx_main_v11 (ix3 b j u) f = ix2 f u :=
  funext fun a => Fin.ext (by match a with | ⟨0, _⟩ => rfl | ⟨1, _⟩ => rfl)

private theorem idx14_eq (b : Fin 8) (j : Fin 4096) (u : Fin 128) : idx_main_v14 (ix3 b j u) = ix3 (0 : Fin 1) (0 : Fin 1) u :=
  funext fun a => Fin.ext (by match a with | ⟨0, _⟩ => rfl | ⟨1, _⟩ => rfl | ⟨2, _⟩ => rfl)

private theorem idx13_eq (y z : Fin 1) (u : Fin 128) : idx_main_v13 (ix3 y z u) = ix1 u :=
  funext fun a => Fin.ext (by match a with | ⟨0, _⟩ => rfl)

/-! ### The reference's stages at an index -/

/-- The compare-and-convert at sender `i`, receiver `j` is the edge indicator. -/
private theorem v2_at (x1 : (⟨S8x4096x4096, .i32⟩ : BufTy).Contents (Elt Ideal)) (b : Fin 8) (i j : Fin 4096) :
    val_main_v2 (F := Ideal) x1 (ix3 b i j) = edge x1 b i j := by
  simp only [val_main_v2_apply, val_main_v1_apply, val_main_v0_apply, val_main_c_apply, edge, ind]

/-- The sum over senders, from the zero it starts at, is the in-degree. -/
private theorem v3_at (x1 : (⟨S8x4096x4096, .i32⟩ : BufTy).Contents (Elt Ideal)) (b : Fin 8) (j : Fin 4096) :
    val_main_v3 (F := Ideal) x1 (ix2 b j) = deg x1 b j := by
  rw [val_main_v3_apply, val_main_cst_apply, Ideal.ofBits_def, Ideal.ofBits_zero_f32, zero_add]
  simp only [idx3_eq, v2_at, deg]

/-- The batched contraction is the neighbour sum. -/
private theorem v4_at (x0 : (⟨S8x4096x128, .f32⟩ : BufTy).Contents (Elt Ideal)) (x1 : (⟨S8x4096x4096, .i32⟩ : BufTy).Contents (Elt Ideal))
    (b : Fin 8) (j : Fin 4096) (f : Fin 128) :
    val_main_v4 (F := Ideal) x0 x1 (ix3 b j f) = nsum x0 x1 b j f := by
  simp only [val_main_v4_apply, lidx4_eq, ridx4_eq, v2_at, nsum]

/-- The broadcast divisor is the in-degree clamped at one. -/
private theorem v8_at (x1 : (⟨S8x4096x4096, .i32⟩ : BufTy).Contents (Elt Ideal)) (b : Fin 8) (j : Fin 4096) (f : Fin 128) :
    val_main_v8 (F := Ideal) x1 (ix3 b j f) = max (deg x1 b j) (Ideal.ofBits .f32 0x3F800000#32) := by
  simp only [val_main_v8_apply, idx8_eq, val_main_v7_apply, idx7_eq, val_main_v6_apply, v3_at, val_main_v5_apply,
    val_main_cst_0_apply, Ideal.maximumf_def, Ideal.ofBits_def]

/-- The quotient is the mean message. -/
private theorem v9_at (x0 : (⟨S8x4096x128, .f32⟩ : BufTy).Contents (Elt Ideal)) (x1 : (⟨S8x4096x4096, .i32⟩ : BufTy).Contents (Elt Ideal))
    (b : Fin 8) (j : Fin 4096) (f : Fin 128) :
    val_main_v9 (F := Ideal) x0 x1 (ix3 b j f) = nmean x0 x1 b j f := by
  simp only [val_main_v9_apply, v4_at, v8_at, Ideal.hostDivf_def, nmean]

/-- The reference's result array, as a function of its five arguments, is the specification's. -/
theorem ref_eq (x0 : (⟨S8x4096x128, .f32⟩ : BufTy).Contents (Elt Ideal)) (x1 : (⟨S8x4096x4096, .i32⟩ : BufTy).Contents (Elt Ideal))
    (x2 x3 : (⟨S128x128, .f32⟩ : BufTy).Contents (Elt Ideal)) (x4 : (⟨S128, .f32⟩ : BufTy).Contents (Elt Ideal)) :
    val_main_v16 (F := Ideal) x0 x1 x2 x3 x4 = out x0 x1 x2 x3 x4 := by
  funext i
  obtain ⟨b, j, u, rfl⟩ : ∃ (b : Fin 8) (j : Fin 4096) (u : Fin 128), i = ix3 b j u := ⟨i 0, i 1, i 2, ValueIdx.eq_ix3 i⟩
  rw [out_apply]
  simp only [val_main_v16_apply, val_main_v15_apply, val_main_v12_apply, val_main_v11_apply, val_main_v10_apply,
    lidx11_eq, ridx11_eq, lidx10_eq, ridx10_eq, v9_at, val_main_v14_apply, idx14_eq, val_main_v13_apply, idx13_eq,
    val_main_call0_v0_apply, val_main_call0_cst_apply, Ideal.addf_def, Ideal.maximumf_def, Ideal.ofBits_def, outAt]

end Cert.ReferenceIdeal.RefSpec

end
-- ==== Proof.lean ====
/-
  A message-passing layer over a dense adjacency (edge indicator, in-degree, mean of the senders' features, two dense
  products, bias, clamp at zero) as a pipelined kernel against its plain reference: the kernel, its reading on the
  extended reals and the reference each run to the end without fault and leave their arguments as they found them,
  and on the extended reals the kernel's result is the reference's, element by element.
  The kernel walks the grid (batch, sender tile) = (8, 16) with the node features handed to it twice — a tile of
  sender rows and the batch's receiver rows, two windows on one array, which hold it at its two half shares — and
  carries the neighbour sums and in-degrees of a batch in two scratch accumulators from tile to tile, reset at the
  batch's first tile and turned into the result rows at its last. Both frames are one argument, for any float type:
  the body's three cases run symbolically, the accumulators' contents named point by point, the launch of a region
  whose windows share an array. On the extended reals the accumulators after a batch's last tile hold the sums
  over all 4096 senders, tile by tile (addition there is associative and commutative, so nothing is asked of the
  inputs' finiteness), which is what the reference's one contraction and one sum compute; the remaining operations
  are the same on both sides, in the same order.
-/
import proofs.«118113_j2903397893033_1_alg».proof.Defs
import proofs.«118113_j2903397893033_1_alg».proof.Proof.Gen.Kernel
import proofs.«118113_j2903397893033_1_alg».proof.Proof.Gen.KernelIdeal
import proofs.«118113_j2903397893033_1_alg».proof.Proof.Gen.ReferenceIdeal
import proofs.«118113_j2903397893033_1_alg».proof.Proof.Gen.Pre_finite_inputs
import proofs.«118113_j2903397893033_1_alg».proof.Proof.K.Launch
import proofs.«118113_j2903397893033_1_alg».proof.Proof.KI.Value
import proofs.«118113_j2903397893033_1_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the frame argument at the machine's floats. -/
theorem frame_kernel : Cert.frame_Kernel := fun m ρ _ => Cert.Kernel.Mpnn.frame m ρ

/-- The same argument on the extended reals. -/
theorem frame_kernelIdeal : Cert.frame_KernelIdeal := fun m ρ _ => Cert.KernelIdeal.Mpnn.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the specification's layer of their (equal) arguments. -/
theorem algebraic : Cert.algebraic_KernelIdeal_ReferenceIdeal := by
  intro m ρ m' ρ' _ hagree
  refine ⟨_, Cert.KernelIdeal.Mpnn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefSpec.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
